-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_tau" .f32 0x42480000#32 ((268435456 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v66)) (v3 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_v28_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : IVec S4096 32) (main_arg3 : FVec F S4096 .f32) (main_arg4 : FVec F S4096 .f32) (main_arg5 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S1 : Shape := ⟨1, ![1]⟩
abbrev S1x4096 : Shape := ⟨2, ![1, 4096]⟩
abbrev S4096x4096 : Shape := ⟨2, ![4096, 4096]⟩
abbrev S1024x512 : Shape := ⟨2, ![1024, 512]⟩
abbrev S512x512 : Shape := ⟨2, ![512, 512]⟩
abbrev S1x512 : Shape := ⟨2, ![1, 512]⟩
abbrev S1024x1 : Shape := ⟨2, ![1024, 1]⟩
abbrev S1024 : Shape := ⟨1, ![1024]⟩

abbrev nBuf : Space → Nat
  | .hbm => 107
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S4096, .i32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S4096x512, .bf16⟩
  | .hbm, ⟨27, _⟩ => ⟨S4096x512, .bf16⟩
  | .hbm, ⟨28, _⟩ => ⟨S1, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S1x4096, .f32⟩
  | .hbm, ⟨39, _⟩ => ⟨S1x4096, .f32⟩
  | .hbm, ⟨40, _⟩ => ⟨S4096x4096, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_v28_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_cst_15 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_cst_18 : Ref sig .tc := ⟨.hbm, 104, rfl⟩
abbrev main_v69 : Ref sig .tc := ⟨.hbm, 105, rfl⟩
abbrev main_v70 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_26 : BitVec 32 := 0#32
  let v45 : BitVec 1 := Scalar.cmpi .ne v44 c0_i32_26
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  slices_S4096_S1_0 : S4096.Slices ![0] S1
  shapeCasts_S1_S_ : S1.ShapeCasts S_
  bcast_S_S4096 : S_.BroadcastsInDim S4096 (![] : Fin 0 → Fin S4096.rank)
  reducesTo_S4096_S_d0 : S4096.ReducesTo [0] S_
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S1024x512_o0_0_S1024x1 : S1024x512.Slices ![0, 0] S1024x1
  shapeCasts_S4096_S4096x1 : S4096.ShapeCasts S4096x1
  shapeCasts_S4096x1_S4096 : S4096x1.ShapeCasts S4096
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S4096x1.size a
  hwx0_8 : ∀ i : grid0.Coords, EltTy.bits .f32 = 32 ∨ (Rect.block (s := S4096x1) S1024x1.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v17) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_2) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_3) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_4) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1 : Shape := ⟨1, ![1]⟩
abbrev S1x4096 : Shape := ⟨2, ![1, 4096]⟩

abbrev nBuf : Space → Nat
  | .hbm => 122
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S4096, .i32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S512x4096, .f32⟩
  | .hbm, ⟨27, _⟩ => ⟨S4096x4096, .f32⟩
  | .hbm, ⟨28, _⟩ => ⟨S1, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x4096, .f32⟩
  | .hbm, ⟨52, _⟩ => ⟨S4096x4096, .f32⟩
  | .hbm, ⟨53, _⟩ => ⟨S1x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S4096, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S4096, .f32⟩
  | .hbm, ⟨104, _⟩ => ⟨S4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4096, .f32⟩
  | .hbm, ⟨109, _⟩ => ⟨S4096, .f32⟩
  | .hbm, ⟨110, _⟩ => ⟨S_, .f32⟩
  | .hbm, ⟨111, _⟩ => ⟨S4096, .f32⟩
  | .hbm, ⟨112, _⟩ => ⟨S4096, .f32⟩
  | .hbm, ⟨113, _⟩ => ⟨S_, .f32⟩
  | .hbm, ⟨114, _⟩ => ⟨S4096, .f32⟩
  | .hbm, ⟨115, _⟩ => ⟨S4096, .f32⟩
  | .hbm, ⟨116, _⟩ => ⟨S4096, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_cst_17 : Ref sig .tc := ⟨.hbm, 102, rfl⟩
abbrev main_v77 : Ref sig .tc := ⟨.hbm, 103, rfl⟩
abbrev main_v78 : Ref sig .tc := ⟨.hbm, 104, rfl⟩
abbrev main_cst_18 : Ref sig .tc := ⟨.hbm, 105, rfl⟩
abbrev main_cst_19 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_v79 : Ref sig .tc := ⟨.hbm, 112, rfl⟩
abbrev main_cst_20 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_21 : Ref sig .tc := ⟨.hbm, 117, rfl⟩
abbrev main_v83 : Ref sig .tc := ⟨.hbm, 118, rfl⟩
abbrev main_cst_22 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  slices_S4096_S1_0 : S4096.Slices ![0] S1
  shapeCasts_S1_S_ : S1.ShapeCasts S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  slices_S4096x4096_S4096x1_0_0 : S4096x4096.Slices ![0, 0] S4096x1
  shapeCasts_S4096x1_S4096 : S4096x1.ShapeCasts S4096
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.Spec.lean ====
/-
  The mathematics both programs compute, over the extended reals, stated once over plain index types.

  Rows `r` and columns `c` range over the 4096 samples, `k` over the 512 features.  `T` and `Vn` are the
  normalised textual and visual features, `L` the 0/1 row of labels that agree with sample 0's, `M` its
  complement `1 - L`, `nneg` the number of negatives `∑ M`, `marg` the per-sample margins.

    score r c   = ∑ k, T r k * Vn c k
    e r c       = exp (score r c / τ)                       (τ the f32 word of 0.02)
    posSum r    = ∑ c, e r c * L c
    negSum r    = ∑ c, e r c * M c
    posW r      = ∑ c, e r c * L c * score r c
    psl r       = max (-(posW r / posSum r) + τ * log (min (negSum r) C) + marg r) 0
                  + max (-(score r 0) + τ * log (min (exp (score r 0 / τ) * nneg) C) + marg r) 0

  The kernel accumulates the three sums over eight column tiles of 512 and multiplies by the reciprocal of τ
  where the reference divides; the reference divides each weight by `posSum r` before summing where the kernel
  divides the sum.  Float literals stay as their words: both programs carry the same ones.
-/
import Idealize.ShloMosaic.PureOps.Ideal
import Idealize.ShloMosaic.Lib.ValueIdx

noncomputable section

namespace Cert.Spec

open Idealize.ShloMosaic

/-- The temperature: the f32 word of 0.02. -/
def tau : EReal := Ideal.ofBits .f32 0x3CA3D70A#32
/-- The clamp: the f32 word of 1e36. -/
def clampMax : EReal := Ideal.ofBits .f32 0x7B4097CE#32
/-- The f32 zero word (it denotes 0; kept as a word where both programs carry it). -/
def zeroW : EReal := Ideal.ofBits .f32 0x00000000#32

/-- The per-sample loss from the four row statistics, the margin and the number of negatives. -/
def pslOf (ps ns pw s0 mg nn : EReal) : EReal :=
  max (-(Ideal.div pw ps) + tau * Ideal.log (min ns clampMax) + mg) zeroW
    + max (-s0 + tau * Ideal.log (min (Ideal.exp (Ideal.div s0 tau) * nn) clampMax) + mg) zeroW

section
variable (T Vn : Fin 4096 → Fin 512 → EReal) (L M : Fin 4096 → EReal)

/-- The similarity of text row `r` and image row `c`. -/
def score (r c : Fin 4096) : EReal := ∑ k : Fin 512, T r k * Vn c k

/-- The exponential weight of the pair. -/
def e (r c : Fin 4096) : EReal := Ideal.exp (Ideal.div (score T Vn r c) tau)

def posSum (r : Fin 4096) : EReal := ∑ c : Fin 4096, e T Vn r c * L c
def negSum (r : Fin 4096) : EReal := ∑ c : Fin 4096, e T Vn r c * M c
def posW (r : Fin 4096) : EReal := ∑ c : Fin 4096, e T Vn r c * L c * score T Vn r c

/-- The per-sample loss of row `r`. -/
def psl (marg : Fin 4096 → EReal) (nneg : EReal) (r : Fin 4096) : EReal :=
  pslOf (posSum T Vn L r) (negSum T Vn M r) (posW T Vn L r) (score T Vn r 0) (marg r) nneg

end

end Cert.Spec

end
-- ==== Proof.KTail.lean ====
/-
  The host operations after the region, read as values: the per-sample loss is `Spec.pslOf` of the four column arrays the region wrote, the margin and the
  number of negatives, row by row; the weights depend on the last two inputs only; the final loss is the weighted
  mean of the per-sample losses.
-/
import proofs.«145600_j21517786153378_1_alg».proof.Proof.KernelIdealFrame.Frame
import proofs.«145600_j21517786153378_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

namespace Cert.KernelIdeal.KT

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-- The buffers after the host operations that follow the region. -/
abbrev tailAt (c : Dev nD) (b : Ref sig .tc) : Buf (Elt Ideal) ((c.tc : Thread nD τ).loc b) :=
  Pipeline.afterTail₀ cfgs (dats m) 0 (V0 m) [hostOps1, hostOps1_1, hostOps1_2, hostOps1_3, hostOps1_4] c b

/-! ## After the region -/

/-! A buffer that is none of the region's arrays is, at the region's exit, what it was at its entry; one of the
    region's arrays is what the region left there. -/
private theorem exit_arg3 (c : Dev nD) (A : (w : Fin 9) → Buf (Elt Ideal) ((spec0 w).arr.view.loc (c.tc : Thread nD τ))) :
    Pipeline.withArrays spec0 c (V0 m c) A (Proc.devRef .tc main_arg3) = (m ((c.tc : Thread nD τ).loc main_arg3)) :=
  (Pipeline.withArrays_of_ne spec0 c (V0 m c) A main_arg3 (by exact (by decide : ∀ w, Pipeline.arrRef spec0 w ≠ main_arg3))).trans (V_main_arg3 m c)
private theorem exit_arg4 (c : Dev nD) (A : (w : Fin 9) → Buf (Elt Ideal) ((spec0 w).arr.view.loc (c.tc : Thread nD τ))) :
    Pipeline.withArrays spec0 c (V0 m c) A (Proc.devRef .tc main_arg4) = (m ((c.tc : Thread nD τ).loc main_arg4)) :=
  (Pipeline.withArrays_of_ne spec0 c (V0 m c) A main_arg4 (by exact (by decide : ∀ w, Pipeline.arrRef spec0 w ≠ main_arg4))).trans (V_main_arg4 m c)
private theorem exit_arg5 (c : Dev nD) (A : (w : Fin 9) → Buf (Elt Ideal) ((spec0 w).arr.view.loc (c.tc : Thread nD τ))) :
    Pipeline.withArrays spec0 c (V0 m c) A (Proc.devRef .tc main_arg5) = (m ((c.tc : Thread nD τ).loc main_arg5)) :=
  (Pipeline.withArrays_of_ne spec0 c (V0 m c) A main_arg5 (by exact (by decide : ∀ w, Pipeline.arrRef spec0 w ≠ main_arg5))).trans (V_main_arg5 m c)
private theorem exit_v25 (c : Dev nD) (A : (w : Fin 9) → Buf (Elt Ideal) ((spec0 w).arr.view.loc (c.tc : Thread nD τ))) :
    Pipeline.withArrays spec0 c (V0 m c) A (Proc.devRef .tc main_v25) = V m c main_v25 :=
  Pipeline.withArrays_of_ne spec0 c (V0 m c) A main_v25 (by exact (by decide : ∀ w, Pipeline.arrRef spec0 w ≠ main_v25))
private theorem exit_w5 (c : Dev nD) (A : (w : Fin 9) → Buf (Elt Ideal) ((spec0 w).arr.view.loc (c.tc : Thread nD τ))) :
    Pipeline.withArrays spec0 c (V0 m c) A (Proc.devRef .tc main_v28_1) = A 5 :=
  Pipeline.withArrays_arr spec0 launch0.win.arr_inj c (V0 m c) A 5
private theorem exit_w6 (c : Dev nD) (A : (w : Fin 9) → Buf (Elt Ideal) ((spec0 w).arr.view.loc (c.tc : Thread nD τ))) :
    Pipeline.withArrays spec0 c (V0 m c) A (Proc.devRef .tc main_v28_2) = A 6 :=
  Pipeline.withArrays_arr spec0 launch0.win.arr_inj c (V0 m c) A 6
private theorem exit_w7 (c : Dev nD) (A : (w : Fin 9) → Buf (Elt Ideal) ((spec0 w).arr.view.loc (c.tc : Thread nD τ))) :
    Pipeline.withArrays spec0 c (V0 m c) A (Proc.devRef .tc main_v28_3) = A 7 :=
  Pipeline.withArrays_arr spec0 launch0.win.arr_inj c (V0 m c) A 7
private theorem exit_w8 (c : Dev nD) (A : (w : Fin 9) → Buf (Elt Ideal) ((spec0 w).arr.view.loc (c.tc : Thread nD τ))) :
    Pipeline.withArrays spec0 c (V0 m c) A (Proc.devRef .tc main_v28_4) = A 8 :=
  Pipeline.withArrays_arr spec0 launch0.win.arr_inj c (V0 m c) A 8

/-- The chain of column operations: from the four column statistics, the margin column and the number of
    negatives to the column of per-sample losses. -/
private def pslCol (a5 a6 a7 a8 mg : Vec Ideal S4096x1 .f32) (nn : Vec Ideal S_ .f32) : Vec Ideal S4096x1 .f32 :=
  addf (F := Ideal)
    (maximumf (F := Ideal)
      (addf (F := Ideal)
        (addf (F := Ideal) (Host.negf (F := Ideal) (Host.divf (F := Ideal) a7 a5))
          (mulf (F := Ideal) (broadcastInDim S4096x1 ![] bcast_S_S4096x1 (constant (F := Ideal) S_ .f32 0x3CA3D70A#32))
            (Host.log (F := Ideal) (minimumf (F := Ideal) a6
              (broadcastInDim S4096x1 ![] bcast_S_S4096x1 (constant (F := Ideal) S_ .f32 0x7B4097CE#32))))))
        mg)
      (broadcastInDim S4096x1 ![] bcast_S_S4096x1 (constant (F := Ideal) S_ .f32 0x00000000#32)))
    (maximumf (F := Ideal)
      (addf (F := Ideal)
        (addf (F := Ideal) (Host.negf (F := Ideal) a8)
          (mulf (F := Ideal) (broadcastInDim S4096x1 ![] bcast_S_S4096x1 (constant (F := Ideal) S_ .f32 0x3CA3D70A#32))
            (Host.log (F := Ideal) (minimumf (F := Ideal)
              (mulf (F := Ideal)
                (Host.exp (F := Ideal) (Host.divf (F := Ideal) a8
                  (broadcastInDim S4096x1 ![] bcast_S_S4096x1 (constant (F := Ideal) S_ .f32 0x3CA3D70A#32))))
                (broadcastInDim S4096x1 ![] bcast_S_S4096x1 nn))
              (broadcastInDim S4096x1 ![] bcast_S_S4096x1 (constant (F := Ideal) S_ .f32 0x7B4097CE#32))))))
        mg)
      (broadcastInDim S4096x1 ![] bcast_S_S4096x1 (constant (F := Ideal) S_ .f32 0x00000000#32)))

/-- The chain read at a row: `Spec.pslOf` of the entries. -/
private theorem pslCol_apply (a5 a6 a7 a8 mg : Vec Ideal S4096x1 .f32) (nn : Vec Ideal S_ .f32) (i : S4096x1.Idx) :
    pslCol a5 a6 a7 a8 mg nn i = Spec.pslOf (a5 i) (a6 i) (a7 i) (a8 i) (mg i) (nn ix0) := by
  unfold pslCol Spec.pslOf Spec.tau Spec.clampMax Spec.zeroW
  simp only [addf_apply, maximumf_apply, minimumf_apply, mulf_apply, Host.negf, Host.log, Host.exp, Host.divf]
  rw [broadcastInDim_scalar_apply bcast_S_S4096x1 nn i,
    broadcastInDim_scalar_apply bcast_S_S4096x1 (constant (F := Ideal) S_ .f32 0x3CA3D70A#32) i,
    broadcastInDim_scalar_apply bcast_S_S4096x1 (constant (F := Ideal) S_ .f32 0x7B4097CE#32) i,
    broadcastInDim_scalar_apply bcast_S_S4096x1 (constant (F := Ideal) S_ .f32 0x00000000#32) i]
  rfl

/-- A vector recast to a column reads, at row `r`, the vector at `r`. -/
private theorem col_of_vec_apply (x : Vec Ideal S4096 .f32) (r : Fin 4096) :
    shapeCast S4096x1 x shapeCasts_S4096_S4096x1 (ix2 r (0 : Fin 1)) = x (ix1 r) :=
  shapeCast_apply x shapeCasts_S4096_S4096x1 (ix2 r (0 : Fin 1)) (ix1 r) (by
    rw [Shape.rowMajor_val_two, Shape.rowMajor_val_one]
    show r.val = r.val * 1 + 0
    omega)

/-- A column recast to a vector reads, at `r`, the column at row `r`. -/
private theorem vec_of_col_apply (x : Vec Ideal S4096x1 .f32) (r : Fin 4096) :
    shapeCast S4096 x shapeCasts_S4096x1_S4096 (ix1 r) = x (ix2 r (0 : Fin 1)) :=
  shapeCast_apply x shapeCasts_S4096x1_S4096 (ix1 r) (ix2 r (0 : Fin 1)) (by
    rw [Shape.rowMajor_val_two, Shape.rowMajor_val_one]
    show r.val * 1 + 0 = r.val
    omega)

set_option maxHeartbeats 1000000 in
/-- The per-sample losses as one array: the column chain of the four column arrays, recast to a vector. -/
private theorem psl_arr (c : Dev nD) :
    (tailAt m c main_v57 : S4096.Idx → EReal)
      = shapeCast S4096 (pslCol ((dats m 0 c).arrAt 5 cfg0.N) ((dats m 0 c).arrAt 6 cfg0.N) ((dats m 0 c).arrAt 7 cfg0.N)
          ((dats m 0 c).arrAt 8 cfg0.N) (shapeCast S4096x1 (m ((c.tc : Thread nD τ).loc main_arg3)) shapeCasts_S4096_S4096x1) (V m c main_v25))
          shapeCasts_S4096x1_S4096 := by
  unfold tailAt Pipeline.afterTail₀
  simp only [hostOps1, hostOps1_1, hostOps1_2, hostOps1_3, hostOps1_4, List.flatten_cons, List.flatten_nil, List.append_nil, List.cons_append, List.nil_append]
  show StableHlo.after _ _ (Proc.devRef .tc main_v57) = _
  after_results_simp
  rw [exit_w5 m c, exit_w6 m c, exit_w7 m c, exit_w8 m c, exit_arg3 m c, exit_v25 m c]
  rfl

/-- The per-sample losses, row by row, from the region's four column arrays. -/
theorem tail_psl (c : Dev nD) (r : Fin 4096) :
    (tailAt m c main_v57 : S4096.Idx → EReal) (ix1 r)
      = Spec.pslOf (((dats m 0 c).arrAt 5 cfg0.N : S4096x1.Idx → EReal) (ix2 r (0 : Fin 1)))
          (((dats m 0 c).arrAt 6 cfg0.N : S4096x1.Idx → EReal) (ix2 r (0 : Fin 1)))
          (((dats m 0 c).arrAt 7 cfg0.N : S4096x1.Idx → EReal) (ix2 r (0 : Fin 1)))
          (((dats m 0 c).arrAt 8 cfg0.N : S4096x1.Idx → EReal) (ix2 r (0 : Fin 1)))
          ((m ((c.tc : Thread nD τ).loc main_arg3) : S4096.Idx → EReal) (ix1 r))
          ((V m c main_v25 : S_.Idx → EReal) ix0) := by
  refine (congrFun (psl_arr m c) (ix1 r)).trans ?_
  refine (vec_of_col_apply _ r).trans ?_
  refine (pslCol_apply _ _ _ _ _ _ _).trans ?_
  exact congrArg (fun z => Spec.pslOf _ _ _ _ z _) (col_of_vec_apply _ r)

/-- The uncertainty weights: a function of the last two inputs. -/
def weights (u : Vec Ideal S4096 .f32) (s : IVec S4096 32) : Vec Ideal S4096 .f32 :=
  select (cmpi .eq s (broadcastInDim S4096 ![] bcast_S_S4096 (constantI S_ 32 2#32)))
    (minimumf (F := Ideal) (broadcastInDim S4096 ![] bcast_S_S4096 (id (constant (F := Ideal) S_ .f32 0x3F800000#32)))
      (maximumf (F := Ideal) (broadcastInDim S4096 ![] bcast_S_S4096 (id (constant (F := Ideal) S_ .f32 0x3DCCCCCD#32)))
        (subf (F := Ideal) (broadcastInDim S4096 ![] bcast_S_S4096 (constant (F := Ideal) S_ .f32 0x3F800000#32))
          (mulf (F := Ideal) (broadcastInDim S4096 ![] bcast_S_S4096 (constant (F := Ideal) S_ .f32 0x3F000000#32)) u))))
    (broadcastInDim S4096 ![] bcast_S_S4096 (constant (F := Ideal) S_ .f32 0x3F800000#32))

set_option maxHeartbeats 1000000 in
theorem tail_w (c : Dev nD) :
    (tailAt m c main_v66 : S4096.Idx → EReal)
      = weights (m ((c.tc : Thread nD τ).loc main_arg4)) (m ((c.tc : Thread nD τ).loc main_arg5)) := by
  unfold tailAt Pipeline.afterTail₀
  simp only [hostOps1, hostOps1_1, hostOps1_2, hostOps1_3, hostOps1_4, List.flatten_cons, List.flatten_nil, List.append_nil, List.cons_append, List.nil_append]
  show StableHlo.after _ _ (Proc.devRef .tc main_v66) = _
  after_results_simp
  simp only [TRef.ofBuf, TRef.toBuf, cast_eq]
  rw [exit_arg4 m c, exit_arg5 m c]
  rfl

/-- The weighted mean of per-sample losses `p` under weights `w`. -/
def finalOf (p w : Vec Ideal S4096 .f32) : Vec Ideal S_ .f32 :=
  Host.divf (F := Ideal) (Host.reduceAdd (F := Ideal) (mulf (F := Ideal) p w) (constant (F := Ideal) S_ .f32 0x00000000#32) reducesTo_S4096_S_d0 h_S_)
    (Host.reduceAdd (F := Ideal) w (constant (F := Ideal) S_ .f32 0x00000000#32) reducesTo_S4096_S_d0 h_S_)

/-- The last six operations, from any contents: the quotient of the two sums. -/
private theorem final_of_last (G : Valuation τ sig (Elt Ideal)) :
    (StableHlo.after hostOps1_4 G (Proc.devRef .tc main_v70) : S_.Idx → EReal)
      = finalOf (StableHlo.after hostOps1_4 G (Proc.devRef .tc main_v57)) (StableHlo.after hostOps1_4 G (Proc.devRef .tc main_v66)) := by
  after_results
  rfl

theorem tail_final (c : Dev nD) :
    (tailAt m c main_v70 : S_.Idx → EReal) = finalOf (tailAt m c main_v57) (tailAt m c main_v66) := by
  unfold tailAt Pipeline.afterTail₀
  have e : ([hostOps1, hostOps1_1, hostOps1_2, hostOps1_3, hostOps1_4] : List (List (HloOp τ sig (Elt Ideal)))).flatten
      = (hostOps1 ++ hostOps1_1 ++ hostOps1_2 ++ hostOps1_3) ++ hostOps1_4 := by
    simp only [List.flatten_cons, List.flatten_nil, List.append_nil, List.append_assoc]
  rw [e, StableHlo.after_append]
  exact final_of_last _

end Cert.KernelIdeal.KT

end
-- ==== Proof.KRun.lean ====
/-
  The idealized kernel's run with its four results named: the final loss, the per-sample losses and the weights are
  what the host operations after the region leave, the scores are the region's first output array, and the six
  argument arrays end as launched.
-/
import proofs.«145600_j21517786153378_1_alg».proof.Proof.KTail

set_option maxRecDepth 16384

noncomputable section

namespace Cert.KernelIdeal.KT

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- Every weakly fair execution of the idealized kernel ends with the results at the tail's values and the scores
    at the region's array. -/
theorem run_results : θ_run defs (onTc (τ := τ) (main (F := Ideal))) ⟨m, fun _ => 0, ρ⟩ (fun r => ∀ c : Dev nD,
      r.2.mem ((c.tc : Thread nD τ).loc main_v70) = tailAt m c main_v70
      ∧ r.2.mem ((c.tc : Thread nD τ).loc main_v57) = tailAt m c main_v57
      ∧ r.2.mem ((c.tc : Thread nD τ).loc main_v66) = tailAt m c main_v66
      ∧ r.2.mem ((c.tc : Thread nD τ).loc main_v28_0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v70 (Pipeline.mem_restRefs_of main_v70 (by decide) (by decide)),
     (h c).2 main_v57 (Pipeline.mem_restRefs_of main_v57 (by decide) (by decide)),
     (h c).2 main_v66 (Pipeline.mem_restRefs_of main_v66 (by decide) (by decide)),
     (h c).1 4,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.KT

end
-- ==== Proof.KPre.lean ====
/-
  The host operations before the region, read as values: the two feature arrays are normalised row by row
  (x / max (√(∑ₖ x²)) ε) and recast, the label row is "the identity equals sample 0's" as 0/1 laid out as a 1 x 4096
  row, the mask its complement 1 - labels, and the number of negatives the mask's sum.
-/
import proofs.«145600_j21517786153378_1_alg».proof.Proof.KernelIdealFrame.Frame
import proofs.«145600_j21517786153378_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KT

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ)

/-! ## Before the region -/

/-- A feature array normalised row by row: x / max (√(∑ₖ x²)) ε. -/
def normed (x : Vec Ideal S4096x512 .f32) : Vec Ideal S4096x512 .f32 :=
  Host.divf (F := Ideal) x (broadcastInDim S4096x512 ![0, 1] bcast_S4096x1_S4096x512_0_1 (maximumf (F := Ideal) (Host.sqrt (F := Ideal) (broadcastInDim S4096x1 ![0] bcast_S4096_S4096x1_0
    (Host.reduceAdd (F := Ideal) (mulf (F := Ideal) x x) (constant (F := Ideal) S_ .f32 0x00000000#32) reducesTo_S4096x512_S4096_d1 h_S_)))
    (broadcastInDim S4096x1 ![] bcast_S_S4096x1 (constant (F := Ideal) S_ .f32 0x2B8CBCCC#32))))

/-- The label vector: 1 where the identity equals sample 0's, else 0. -/
def labels (p : IVec S4096 32) : Vec Ideal S4096 .f32 :=
  uitofp (F := Ideal) .f32 (cmpi .eq p (broadcastInDim S4096 ![] bcast_S_S4096 (shapeCast S_ (extractStridedSlice S1 ![0] p slices_S4096_S1_0) shapeCasts_S1_S_)))

/-- The mask vector: 1 - labels. -/
def mask (p : IVec S4096 32) : Vec Ideal S4096 .f32 :=
  subf (F := Ideal) (broadcastInDim S4096 ![] bcast_S_S4096 (constant (F := Ideal) S_ .f32 0x3F800000#32)) (labels p)

/-- The number of negatives. -/
def nneg (p : IVec S4096 32) : Vec Ideal S_ .f32 :=
  Host.reduceAdd (F := Ideal) (mask p) (constant (F := Ideal) S_ .f32 0x00000000#32) reducesTo_S4096_S_d0 h_S_

/-- The text rows' array when the region is entered: the host operations' term on the launch contents. The recast to
    the narrower format is the identity on extended reals. -/
private theorem T_arr (c : Dev nD) :
    (V m c main_v17 : S4096x512.Idx → EReal) = normed (m ((c.tc : Thread nD τ).loc main_arg1)) := by
  show StableHlo.after hostOps0 (fun b => m (c, b)) (Proc.devRef .tc main_v17) = _
  after_results
  rfl

/-- The image rows' array when the region is entered. -/
private theorem V_arr (c : Dev nD) :
    (V m c main_v16 : S4096x512.Idx → EReal) = normed (m ((c.tc : Thread nD τ).loc main_arg0)) := by
  show StableHlo.after hostOps0 (fun b => m (c, b)) (Proc.devRef .tc main_v16) = _
  after_results
  rfl

/-- The label row: the label vector laid out as one row of 4096. -/
private theorem L_arr (c : Dev nD) :
    (V m c main_v26 : S1x4096.Idx → EReal)
      = shapeCast S1x4096 (labels (m ((c.tc : Thread nD τ).loc main_arg2))) shapeCasts_S4096_S1x4096 := by
  show StableHlo.after hostOps0 (fun b => m (c, b)) (Proc.devRef .tc main_v26) = _
  after_results_simp
  rfl

/-- The mask row: the mask vector laid out as one row of 4096. -/
private theorem M_arr (c : Dev nD) :
    (V m c main_v27 : S1x4096.Idx → EReal)
      = shapeCast S1x4096 (mask (m ((c.tc : Thread nD τ).loc main_arg2))) shapeCasts_S4096_S1x4096 := by
  show StableHlo.after hostOps0 (fun b => m (c, b)) (Proc.devRef .tc main_v27) = _
  after_results_simp
  rfl

theorem pre_T (c : Dev nD) (i : S4096x512.Idx) :
    (V m c main_v17 : S4096x512.Idx → EReal) i = normed (m ((c.tc : Thread nD τ).loc main_arg1)) i :=
  congrFun (T_arr m c) i

theorem pre_V (c : Dev nD) (i : S4096x512.Idx) :
    (V m c main_v16 : S4096x512.Idx → EReal) i = normed (m ((c.tc : Thread nD τ).loc main_arg0)) i :=
  congrFun (V_arr m c) i

theorem pre_L (c : Dev nD) (j : Fin 4096) :
    (V m c main_v26 : S1x4096.Idx → EReal) (ix2 (0 : Fin 1) j) = labels (m ((c.tc : Thread nD τ).loc main_arg2)) (ix1 j) := by
  rw [L_arr]
  exact shapeCast_a_1a_apply _ _ 0 j

theorem pre_M (c : Dev nD) (j : Fin 4096) :
    (V m c main_v27 : S1x4096.Idx → EReal) (ix2 (0 : Fin 1) j) = mask (m ((c.tc : Thread nD τ).loc main_arg2)) (ix1 j) := by
  rw [M_arr]
  exact shapeCast_a_1a_apply _ _ 0 j

theorem pre_N (c : Dev nD) :
    (V m c main_v25 : S_.Idx → EReal) = nneg (m ((c.tc : Thread nD τ).loc main_arg2)) := by
  show StableHlo.after hostOps0 (fun b => m (c, b)) (Proc.devRef .tc main_v25) = _
  after_results_simp
  rfl

end Cert.KernelIdeal.KT

end
-- ==== Proof.KPieces.lean ====
/-
  The body's stores, case by case, as its arithmetic.  The grid is 4 row tiles by 8 column tiles; a point is in
  case A at the first column tile (the accumulators are reset, then updated), in case C at the last (they are updated,
  then copied to the outputs), in case B in between.  Every point stores the 1024 x 512 scores tile; the three sums
  are the previous contents plus this tile's row sums; the first-column scores are captured at the first tile and
  carried unchanged.
-/
import proofs.«145600_j21517786153378_1_alg».proof.Proof.KernelIdealFrame.Frame
import Idealize.ShloMosaic.Lib.Pipeline.Value

set_option maxRecDepth 16384

noncomputable section

namespace Cert.KernelIdeal.KP

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F] [Named F]

/-- The zero offsets of a rank-2 rectangle, however they are spelt. -/
private theorem hz : (![0, 0] : Fin 2 → Nat) = fun _ => 0 := funext fun a => by fin_cases a <;> rfl

/-- What case A leaves in output window 4, as the body's arithmetic on the blocks it loaded. -/
theorem out0_A_4_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x512 .bf16) (x1 : Vec F S512x512 .bf16) (x2 : Vec F S1x512 .f32) (x3 : Vec F S1x512 .f32) :
    out0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay3 x0 x1 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_unit_zero (S := S1024x512) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case A leaves in the carried scratch 0, as the body's arithmetic on the blocks it loaded. -/
theorem sout0_A_0_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x512 .bf16) (x1 : Vec F S512x512 .bf16) (x2 : Vec F S1x512 .f32) (x3 : Vec F S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay12 x0 x1 x2 k0_pay8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case A leaves in the carried scratch 1, as the body's arithmetic on the blocks it loaded. -/
theorem sout0_A_1_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x512 .bf16) (x1 : Vec F S512x512 .bf16) (x2 : Vec F S1x512 .f32) (x3 : Vec F S1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay1 (k0_pay7 x0 x1 x3) k0_pay9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case A leaves in the carried scratch 2, as the body's arithmetic on the blocks it loaded. -/
theorem sout0_A_2_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x512 .bf16) (x1 : Vec F S512x512 .bf16) (x2 : Vec F S1x512 .f32) (x3 : Vec F S1x512 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay2 (k0_pay6 x0 x1 x2) k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case A leaves in the carried scratch 3, as the body's arithmetic on the blocks it loaded. -/
theorem sout0_A_3_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : cond0_0 i) (hc1 : ¬cond0_1 i)
    (x0 : Vec F S1024x512 .bf16) (x1 : Vec F S512x512 .bf16) (x2 : Vec F S1x512 .f32) (x3 : Vec F S1x512 .f32) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 = k0_pay11 x0 x1 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3)]
  unfold kernelRun0_A
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case B leaves in output window 4, as the body's arithmetic on the blocks it loaded. -/
theorem out0_B_4_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    out0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay3 x0 x1 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_B
  dsimp only
  sl_unfold_words
  rw [View.canon_unit_zero (S := S1024x512) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case B leaves in the carried scratch 0, as the body's arithmetic on the blocks it loaded and on what the point before left. -/
theorem sout0_B_0_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay12 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case B leaves in the carried scratch 1, as the body's arithmetic on the blocks it loaded and on what the point before left. -/
theorem sout0_B_1_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay1 (k0_pay7 x0 x1 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case B leaves in the carried scratch 2, as the body's arithmetic on the blocks it loaded and on what the point before left. -/
theorem sout0_B_2_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay2 (k0_pay6 x0 x1 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case B leaves in the carried scratch 3, as the body's arithmetic on the blocks it loaded and on what the point before left. -/
theorem sout0_B_3_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : ¬cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = xs3 := by
  rfl

/-- What case C leaves in output window 4, as the body's arithmetic on the blocks it loaded. -/
theorem out0_C_4_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    out0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay3 x0 x1 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x512) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in output window 5, as the body's arithmetic on the blocks it loaded and on what the point before left. -/
theorem out0_C_5_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay12 x0 x1 x2 xs0 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in output window 6, as the body's arithmetic on the blocks it loaded and on what the point before left. -/
theorem out0_C_6_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay1 (k0_pay7 x0 x1 x3) xs1 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in output window 7, as the body's arithmetic on the blocks it loaded and on what the point before left. -/
theorem out0_C_7_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay2 (k0_pay6 x0 x1 x2) xs2 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in output window 8, as the body's arithmetic on the blocks it loaded and on what the point before left. -/
theorem out0_C_8_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = xs3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in the carried scratch 0, as the body's arithmetic on the blocks it loaded and on what the point before left. -/
theorem sout0_C_0_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay12 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in the carried scratch 1, as the body's arithmetic on the blocks it loaded and on what the point before left. -/
theorem sout0_C_1_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay1 (k0_pay7 x0 x1 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in the carried scratch 2, as the body's arithmetic on the blocks it loaded and on what the point before left. -/
theorem sout0_C_2_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = k0_pay2 (k0_pay6 x0 x1 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg11.read_unread, harg12.read_unread, harg13.read_unread, harg14.read_unread, View.ld_unit_zero (S := S1024x512) hz, View.ld_unit_zero (S := S512x512) hz, View.ld_unit_zero (S := S1x512) hz, View.ld_unit_zero (S := S1024x1) hz, View.readCov_unit_zero (S := S1024x1) _ hz]

/-- What case C leaves in the carried scratch 3, as the body's arithmetic on the blocks it loaded and on what the point before left. -/
theorem sout0_C_3_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (hc0 : ¬cond0_0 i) (hc1 : cond0_1 i)
    (x0 : Vec F S1024x512 .bf16) (x1 : Vec F S512x512 .bf16) (x2 : Vec F S1x512 .f32) (x3 : Vec F S1x512 .f32) (xs0 : Vec F S1024x1 .f32) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 xs0 xs1 xs2 xs3 = xs3 := by
  rfl

end Cert.KernelIdeal.KP

end
-- ==== Proof.KViews.lean ====
/-
  The arrays the region finds, as plain functions of a row and a feature (or a column): `Tk` the normalised text
  rows (window 0, staged in blocks of 1024 rows), `Vk` the normalised image rows (window 1, blocks of 512 rows),
  `Lk` / `Mk` the label and mask rows (windows 2 and 3, blocks of 512 columns of a 1 x 4096 row).
-/
import proofs.«145600_j21517786153378_1_alg».proof.Proof.KernelIdealFrame.Frame
import proofs.«145600_j21517786153378_1_alg».proof.Proof.Spec
import Idealize.ShloMosaic.Lib.ValueIdx

noncomputable section

namespace Cert.KernelIdeal.KA

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The normalised text rows as the region finds them. -/
def Tk (c : Dev nD) (r : Fin 4096) (k : Fin 512) : EReal := (V m c main_v17 : S4096x512.Idx → EReal) (ix2 r k)
/-- The normalised image rows as the region finds them. -/
def Vk (c : Dev nD) (r : Fin 4096) (k : Fin 512) : EReal := (V m c main_v16 : S4096x512.Idx → EReal) (ix2 r k)
/-- The label row. -/
def Lk (c : Dev nD) (j : Fin 4096) : EReal := (V m c main_v26 : S1x4096.Idx → EReal) (ix2 (0 : Fin 1) j)
/-- The mask row. -/
def Mk (c : Dev nD) (j : Fin 4096) : EReal := (V m c main_v27 : S1x4096.Idx → EReal) (ix2 (0 : Fin 1) j)

end Cert.KernelIdeal.KA

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Algebra.lean ====
/-
  Extended-real facts the comparison of the two programs rests on, none of which mentions a program.

  * The temperature word denotes 5368709/268435456, and multiplying by its exact reciprocal
    268435456/5368709 is dividing by it, on every extended real.
  * A sum over the 4096 columns is the sum over eight tiles of 512 consecutive columns.
  * Normalising the weights before summing equals normalising the sum, when every weight is a non-negative
    real, every score a real and some weight positive:  ∑ c, (a c / P) * s c = (∑ c, a c * s c) / P,  P = ∑ a.
    (On the extended reals this fails at infinities; here everything is finite and P > 0.)
  * Closure of the reals under the operations of the normalisation x / max (√(∑ x²)) ε and of the weights.
-/
import proofs.«145600_j21517786153378_1_alg».proof.Proof.Spec
import proofs.«145600_j21517786153378_1_alg».proof.Proof.LibSumSplit
import Idealize.ShloMosaic.PureOps.Ideal.Laws

noncomputable section

namespace Cert.Algebra

open Idealize.ShloMosaic Cert.Spec
open scoped BigOperators

/-- The exact reciprocal of the temperature. -/
def kappa : EReal := ((268435456 / 5368709 : ℝ) : EReal)

/-- The temperature word is the dyadic 5368709 / 2^28. -/
theorem tau_eq : tau = ((5368709 / 268435456 : ℝ) : EReal) := by
  unfold tau
  simp [Ideal.ofBits, Ideal.ieee, -EReal.coe_mul]
  norm_num

/-- The zero word denotes 0. -/
theorem zeroW_eq : zeroW = 0 := by
  unfold zeroW
  exact Ideal.ofBits_zero_f32

/-- The word of 1.0 denotes 1. -/
theorem one_eq : Ideal.ofBits .f32 0x3F800000#32 = ((1 : ℝ) : EReal) := by
  simp [Ideal.ofBits, Ideal.ieee, -EReal.coe_mul]
  norm_num

/-- The normalisation's guard (the f32 word of 1e-12) denotes a positive real. -/
theorem eps_pos : ∃ e : ℝ, 0 < e ∧ Ideal.ofBits .f32 0x2B8CBCCC#32 = (e : EReal) := by
  refine ⟨9223372 / 9223372036854775808, by norm_num, ?_⟩
  simp [Ideal.ofBits, Ideal.ieee, -EReal.coe_mul]
  norm_num

/-- Multiplying by the reciprocal of the temperature is dividing by it, on every extended real. -/
theorem mul_kappa (x : EReal) : x * kappa = Ideal.div x tau := by
  have h : (5368709 / 268435456 : ℝ) ≠ 0 := by norm_num
  rw [tau_eq, Ideal.div_coe h, kappa]
  congr 2
  norm_num

/-- Eight tiles of 512 columns. -/
theorem sum_tiles (f : Fin 4096 → EReal) :
    ∑ c, f c = ∑ j : Fin 8, ∑ q : Fin 512, f ⟨512 * j.val + q.val, Cert.SumSplit.lt_of_run (a := 8) (b := 512) rfl j q⟩ :=
  Cert.SumSplit.sum_split 8 512 4096 rfl f

/-- The embedding of the reals commutes with finite sums. -/
private theorem coe_sum {ι : Type*} (t : Finset ι) (g : ι → ℝ) :
    ∑ c ∈ t, (g c : EReal) = ((∑ c ∈ t, g c : ℝ) : EReal) := by
  classical
  induction t using Finset.induction_on with
  | empty => simp
  | insert i t hi ih => rw [Finset.sum_insert hi, Finset.sum_insert hi, ih, EReal.coe_add]

/-- Weights normalised before the sum, or the sum normalised after: the same, for non-negative real weights one of
    which is positive, and real scores. -/
theorem sum_div_mul {ι : Type*} [Fintype ι] (A S : ι → EReal)
    (hA : ∀ c, ∃ x : ℝ, 0 ≤ x ∧ A c = (x : EReal)) (hS : ∀ c, ∃ x : ℝ, S c = (x : EReal))
    (hpos : ∃ c, ∃ x : ℝ, 0 < x ∧ A c = (x : EReal)) :
    ∑ c, Ideal.div (A c) (∑ c', A c') * S c = Ideal.div (∑ c, A c * S c) (∑ c', A c') := by
  choose a ha0 ha using hA
  choose s hs using hS
  obtain ⟨c0, x0, hx0, hc0⟩ := hpos
  -- the total weight is a positive real
  have hc0' : a c0 = x0 := by
    rw [ha c0] at hc0
    exact_mod_cast hc0
  have hP : (0 : ℝ) < ∑ c, a c :=
    lt_of_lt_of_le (hc0' ▸ hx0) (Finset.single_le_sum (fun i _ => ha0 i) (Finset.mem_univ c0))
  simp only [ha, hs]
  rw [coe_sum]
  simp only [Ideal.div_coe hP.ne', ← EReal.coe_mul]
  rw [coe_sum, coe_sum, ← EReal.coe_mul]
  congr 1
  rw [Finset.sum_mul]
  refine Finset.sum_congr rfl ?_
  intro c _
  ring

/-- A finite sum of reals is a real. -/
theorem sum_real {ι : Type*} [Fintype ι] (f : ι → EReal) (hf : ∀ c, ∃ x : ℝ, f c = (x : EReal)) :
    ∃ x : ℝ, ∑ c, f c = (x : EReal) := by
  choose g hg using hf
  exact ⟨∑ c, g c, by simp only [hg]; exact coe_sum _ _⟩

/-- The normalisation keeps reals real: x / max (√(z + ∑ xⱼ²)) ε for real x, z = 0 and a positive real ε. -/
theorem normalise_real {n : ℕ} (x : Fin n → EReal) (hx : ∀ j, ∃ y : ℝ, x j = (y : EReal)) (k : Fin n)
    (e : ℝ) (he : 0 < e) :
    ∃ y : ℝ, Ideal.div (x k) (max (Ideal.sqrt (zeroW + ∑ j, x j * x j)) (e : EReal)) = (y : EReal) := by
  choose y hy using hx
  -- the sum of squares is a non-negative real, so its root is a real
  have hq : (0 : ℝ) ≤ ∑ j, y j * y j := Finset.sum_nonneg (fun j _ => mul_self_nonneg (y j))
  have hsum : zeroW + ∑ j, x j * x j = ((∑ j, y j * y j : ℝ) : EReal) := by
    simp only [hy, ← EReal.coe_mul]
    rw [zeroW_eq, zero_add, coe_sum]
  have hsqrt : Ideal.sqrt (zeroW + ∑ j, x j * x j) = ((Real.sqrt (∑ j, y j * y j) : ℝ) : EReal) := by
    rw [hsum, Ideal.sqrt_coe, if_neg (not_lt.mpr hq)]
  have hmax : max (Ideal.sqrt (zeroW + ∑ j, x j * x j)) (e : EReal)
      = ((max (Real.sqrt (∑ j, y j * y j)) e : ℝ) : EReal) := by
    rw [hsqrt]
    exact (EReal.coe_strictMono.monotone.map_max).symm
  have hm : (0 : ℝ) < max (Real.sqrt (∑ j, y j * y j)) e := lt_max_of_lt_right he
  refine ⟨y k * (1 / max (Real.sqrt (∑ j, y j * y j)) e), ?_⟩
  rw [hmax, Ideal.div_coe hm.ne', hy k, ← EReal.coe_mul]

/-- The exponential weight of a real score is a positive real. -/
theorem exp_div_tau_pos (s : ℝ) : ∃ x : ℝ, 0 < x ∧ Ideal.exp (Ideal.div (s : EReal) tau) = (x : EReal) := by
  have h : (5368709 / 268435456 : ℝ) ≠ 0 := by norm_num
  refine ⟨Real.exp (s * (1 / (5368709 / 268435456))), Real.exp_pos _, ?_⟩
  rw [tau_eq, Ideal.div_coe h, ← EReal.coe_mul, Ideal.exp_coe]

end Cert.Algebra

end
-- ==== Proof.KScores.lean ====
/-
  The scores array after the region.  Point t = 8 i + j stores, in every case, the 1024 x 512 tile
  (text block i) x (image block j)ᵀ into block (i, j) of the 4096 x 4096 array, and every point writes its block
  back; the 32 blocks tile the array.  So entry (r, c) is ∑ k, Tk r k * Vk c k: row r of the text block i = r / 1024
  against row c of the image block j = c / 512.
-/
import proofs.«145600_j21517786153378_1_alg».proof.Proof.KPieces
import proofs.«145600_j21517786153378_1_alg».proof.Proof.KViews
import proofs.«145600_j21517786153378_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KA

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The tile product at an entry

The tile is the contraction of the text block with the transposed image block over the feature axis, from a zero
accumulator: at (p, q) it sums, over the 512 features k, text (p, k) times image (q, k). -/

/-- Axis 0 of the left operand's index is the entry's row. -/
private theorem lhs_axis0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- Axis 1 of the left operand's index is the summation index. -/
private theorem lhs_axis1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- Axis 0 of the right operand's index is the summation index. -/
private theorem rhs_axis0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- Axis 1 of the right operand's index is the entry's column. -/
private theorem rhs_axis1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The transposed image block at (k, q) is the image block at (q, k). -/
private theorem transposed_apply (x1 : FVec Ideal S512x512 .bf16) (j : S512x512.Idx) (q k : Fin 512)
    (h0 : (j 0).val = k.val) (h1 : (j 1).val = q.val) :
    transpose S512x512 [1, 0] x1 transposes_S512x512_p1_0_S512x512 j = x1 (ix2 q k) :=
  transpose_apply [1, 0] x1 transposes_S512x512_p1_0_S512x512 j (ix2 q k) (fun b => match b with
    | ⟨0, _⟩ => h0.symm
    | ⟨1, _⟩ => h1.symm)

/-- The scores tile at (p, q): row p of the text block against row q of the image block, summed over the 512 features. -/
private theorem tile_apply (x0 : FVec Ideal S1024x512 .bf16) (x1 : FVec Ideal S512x512 .bf16) (p : Fin 1024) (q : Fin 512) :
    k0_pay3 (F := Ideal) x0 x1 (ix2 p q) = ∑ k : Fin 512, x0 (ix2 p k) * x1 (ix2 q k) := by
  unfold k0_pay3
  dsimp only
  refine (Ideal.matmul_constant_zero_apply dot_S1024x512_S512x512_S1024x512_1_0_0_1_n_n none _ _ (ix2 p q)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_axis0 _ _
    | ⟨1, _⟩ => exact (lhs_axis1 _ _).trans hk)
  rw [shapeCast_self, shapeCast_self, el]
  refine congrArg (x0 (ix2 p k) * ·) ?_
  exact transposed_apply x1 _ q k ((rhs_axis0 _ _).trans hk) (rhs_axis1 _ _)

variable (m : (ℓ : Loc nD τ sig) → Buf (Elt Ideal) ℓ)

/-! ## The blocks a point reads, and where they sit in the arrays -/

/-- The text block of a point: 1024 consecutive rows of the text array. -/
private abbrev tblk (c : Dev nD) (t : Fin cfg0.N) : FVec Ideal S1024x512 .bf16 := iblk m c 0 t
/-- The image block of a point: 512 consecutive rows of the image array. -/
private abbrev vblk (c : Dev nD) (t : Fin cfg0.N) : FVec Ideal S512x512 .bf16 := iblk m c 1 t

/-- The block indices over the grid: point t = 8 i + j reads text block (i, 0) and image block (j, 0) and writes
    scores block (i, j). -/
private theorem block_idx : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_4.index t (0 : Fin 2) = t.val / 8 ∧ win0_4.index t (1 : Fin 2) = t.val % 8 :=
  (by decide +kernel : ∀ t : Fin grid0.N, _)

/-- Row p of the text block of point t is row 1024 (t / 8) + p of the text array. -/
private theorem tblk_apply (c : Dev nD) (t : Fin cfg0.N) (p : Fin 1024) (k : Fin 512) (r : Fin 4096)
    (hr : r.val = 1024 * (t.val / 8) + p.val) : tblk m c t (ix2 p k) = Tk m c r k := by
  obtain ⟨e0, e1, -, -, -, -⟩ := block_idx t
  unfold tblk iblk Tk
  rw [View.read_apply]
  show (V m c main_v17 : S4096x512.Idx → EReal) _ = (V m c main_v17 : S4096x512.Idx → EReal) (ix2 r k)
  refine congrArg (V m c main_v17 : S4096x512.Idx → EReal) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Row q of the image block of point t is row 512 (t % 8) + q of the image array. -/
private theorem vblk_apply (c : Dev nD) (t : Fin cfg0.N) (q : Fin 512) (k : Fin 512) (r : Fin 4096)
    (hr : r.val = 512 * (t.val % 8) + q.val) : vblk m c t (ix2 q k) = Vk m c r k := by
  obtain ⟨-, -, e2, e3, -, -⟩ := block_idx t
  unfold vblk iblk Vk
  rw [View.read_apply]
  show (V m c main_v16 : S4096x512.Idx → EReal) _ = (V m c main_v16 : S4096x512.Idx → EReal) (ix2 r k)
  refine congrArg (V m c main_v16 : S4096x512.Idx → EReal) (funext fun a => Fin.ext ?_)
  match a with
  | ⟨0, _⟩ => show win0_1.index t (0 : Fin 2) * 512 + 1 * q.val = r.val; omega
  | ⟨1, _⟩ => show win0_1.index t (1 : Fin 2) * 512 + 1 * k.val = k.val; omega

/-! ## What every point leaves in the scores window -/

/-- In each of the three cases the scores window's staging buffer ends holding the tile of the point's two blocks. -/
private theorem tile_at (c : Dev nD) (t : Fin cfg0.N) :
    (outsAt0 m c t.val t.isLt).1 = k0_pay3 (F := Ideal) (tblk m c t) (vblk m c t) := by
  by_cases h0 : t.val % 8 = 0
  · have h1 : ¬t.val % 8 = 7 := by omega
    rw [outsAt0_A m c t h0 h1]
    dsimp only
    exact KP.out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)
  · by_cases h1 : t.val % 8 = 7
    · rw [outsAt0_C m c t h0 h1]
      dsimp only
      exact KP.out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
    · rw [outsAt0_B m c t h0 h1]
      dsimp only
      exact KP.out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-! ## From the blocks to the array -/

/-- The whole scores array: entry (r, c) is the similarity of text row r and image row c. -/
private abbrev scoreArr (c : Dev nD) : S4096x4096.Idx → EReal := fun i => Spec.score (Tk m c) (Vk m c) (i 0) (i 1)

/-- What point t writes back is its block of the whole scores array. -/
private theorem flushed4_eq (c : Dev nD) (t : Fin cfg0.N) :
    (dats m 0 c).flushed 4 t = ((cfg0.win 4).blk t).view.read (Elt Ideal) (scoreArr m c) := by
  show (cfg0.win 4).cut (grid0.coords t) ((dats m 0 c).after 4 t) = _
  rw [after0_4, tile_at m c t]
  refine funext fun (j : S1024x512.Idx) => ?_
  obtain ⟨p, q, rfl⟩ : ∃ (p : Fin 1024) (q : Fin 512), j = ix2 p q := ⟨j 0, j 1, eq_ix2 j⟩
  obtain ⟨-, -, -, -, e4, e5⟩ := block_idx t
  have hN : t.val < 32 := lt_of_lt_of_eq t.isLt N_0
  have hr : 1024 * (t.val / 8) + p.val < 4096 := by omega
  have hc : 512 * (t.val % 8) + q.val < 4096 := by omega
  have hemb : ((cfg0.win 4).blk t).view.emb (ix2 p q)
      = ix2 (⟨1024 * (t.val / 8) + p.val, hr⟩ : Fin 4096) (⟨512 * (t.val % 8) + q.val, hc⟩ : Fin 4096) := by
    funext a
    apply Fin.ext
    match a with
    | ⟨0, _⟩ => show win0_4.index t (0 : Fin 2) * 1024 + 1 * p.val = 1024 * (t.val / 8) + p.val; omega
    | ⟨1, _⟩ => show win0_4.index t (1 : Fin 2) * 512 + 1 * q.val = 512 * (t.val % 8) + q.val; omega
  show k0_pay3 (F := Ideal) (tblk m c t) (vblk m c t) (ix2 p q) = scoreArr m c (((cfg0.win 4).blk t).view.emb (ix2 p q))
  rw [hemb, tile_apply]
  show _ = Spec.score (Tk m c) (Vk m c) (⟨1024 * (t.val / 8) + p.val, hr⟩ : Fin 4096) (⟨512 * (t.val % 8) + q.val, hc⟩ : Fin 4096)
  unfold Spec.score
  refine Finset.sum_congr rfl fun k _ => ?_
  rw [tblk_apply m c t p k ⟨1024 * (t.val / 8) + p.val, hr⟩ rfl, vblk_apply m c t q k ⟨512 * (t.val % 8) + q.val, hc⟩ rfl]

/-- An entry is in point t's block iff each coordinate is in the block's range on its axis. -/
private theorem mem_blk4 (t : Fin cfg0.N) (i : S4096x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v28_0).slice (win0_4.rect t)).set ↔ _
  rw [View.set_slice_whole, Rect.mem_set_unit]
  exact Iff.rfl

/-- The 32 blocks tile the array: entry (r, c) lies in the block of point 8 (r / 1024) + c / 512, and every point writes
    its block back. -/
private theorem cover4 (i : S4096x4096.Idx) :
    ∃ t : Fin cfg0.N, (cfg0.win 4).flush t = true ∧ i ∈ ((cfg0.win 4).blk t).view.set := by
  have hi0 : (i 0).val < 4096 := idx2_lt0 i
  have hi1 : (i 1).val < 4096 := idx2_lt1 i
  obtain ⟨t, ht⟩ : ∃ t : Fin cfg0.N, t.val = 8 * ((i 0).val / 1024) + (i 1).val / 512 :=
    ⟨⟨8 * ((i 0).val / 1024) + (i 1).val / 512, lt_of_lt_of_eq (by omega) (N_0).symm⟩, rfl⟩
  obtain ⟨-, -, -, -, e4, e5⟩ := block_idx t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The scores array after the region. -/
theorem arr4 (c : Dev nD) (r c' : Fin 4096) :
    ((dats m 0 c).arrAt 4 cfg0.N : S4096x4096.Idx → EReal) (ix2 r c') = Spec.score (Tk m c) (Vk m c) r c' := by
  have h := (dats m 0 c).arrAt_eq_of_cover 4 (scoreArr m c) (fun t _ => flushed4_eq m c t) cover4
  exact congrFun h (ix2 r c')

end Cert.KernelIdeal.KA

end
-- ==== Proof.KSums.lean ====
/-
  The three row sums after the region.  Their windows' block (i, 0) is written back once,
  at the last column tile j = 7, from the accumulators, which hold after point 8 i + j: zero plus, for each column
  tile s ≤ j, that tile's row sum (reset at j = 0, carried in between).  After eight tiles that is the sum over all
  4096 columns.  The weight is exp (score * the named reciprocal of the temperature) = exp (score / temperature).

  In order: one tile's arithmetic read at an index (the score is text row p against image row q; the weight its
  exponential over the temperature; a row sum of a 1024 x 512 tile kept as a column); the blocks a point loads as rows
  and columns of the arrays; what each of the three kinds of point leaves in the accumulators; the accumulators as
  sums over their run of column tiles; the block written back at the last column tile; the arrays.
-/
import proofs.«145600_j21517786153378_1_alg».proof.Proof.KPieces
import proofs.«145600_j21517786153378_1_alg».proof.Proof.KViews
import proofs.«145600_j21517786153378_1_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.KA

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One tile's arithmetic, read at an index -/

private theorem lhs_tile_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
private theorem lhs_tile_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
private theorem rhs_tile_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
private theorem rhs_tile_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A tile's score at local row `p` and local column `q`: text row `p` against image row `q`. -/
private theorem pay3_apply (x0 : FVec Ideal S1024x512 .bf16) (x1 : FVec Ideal S512x512 .bf16) (p : Fin 1024) (q : Fin 512) :
    k0_pay3 (F := Ideal) x0 x1 (ix2 p q) = ∑ k : Fin 512, x0 (ix2 p k) * x1 (ix2 q k) := by
  unfold k0_pay3
  dsimp only
  rw [shapeCast_self, shapeCast_self]
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_tile_0 _ _
    | ⟨1, _⟩ => exact (lhs_tile_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_tile_0 _ _).trans hk
    | ⟨1, _⟩ => exact rhs_tile_1 _ _)
  rw [el, er, transpose_ix2_apply]

/-- The named reciprocal of the temperature is the exact rational. -/
private theorem inv_tau : Named.named (F := Ideal) Cert.KernelIdeal.κ "inv_tau" (φ := .f32) 0x42480000#32 = Cert.Algebra.kappa :=
  IdealRules.named_const.ideal_named_scalar _ _ _ _ rfl

/-- A tile's weight: the exponential of the score over the temperature. -/
private theorem pay4_apply (x0 : FVec Ideal S1024x512 .bf16) (x1 : FVec Ideal S512x512 .bf16) (p : Fin 1024) (q : Fin 512) :
    k0_pay4 (F := Ideal) x0 x1 (ix2 p q) = Ideal.exp (Ideal.div (k0_pay3 (F := Ideal) x0 x1 (ix2 p q)) Spec.tau) := by
  unfold k0_pay4
  show Ideal.exp (k0_pay3 (F := Ideal) x0 x1 (ix2 p q) * Named.named (F := Ideal) Cert.KernelIdeal.κ "inv_tau" (φ := .f32) 0x42480000#32) = _
  rw [inv_tau, Cert.Algebra.mul_kappa]

/-- A column of 1024 made of the row sums of a 1024 x 512 tile: entry `p` is the sum of row `p`. -/
private theorem rowsum_apply (v : FVec Ideal S1024x512 .f32) (p : Fin 1024) (u : Fin 1) :
    shapeCast S1024x1 (multiReduction (F := Ideal) .add [1] S1024 v 0x00000000#32 reduces_S1024x512_S1024 (.inl rfl) rfl) shapeCasts_S1024_S1024x1 (ix2 p u)
      = ∑ q : Fin 512, v (ix2 p q) := by
  rw [shapeCast_apply _ shapeCasts_S1024_S1024x1 (ix2 p u) (ix1 p) (by
    have hu : u.val = 0 := by omega
    rw [Shape.rowMajor_val_one, Shape.rowMajor_val_two]
    show p.val = p.val * 1 + u.val
    omega)]
  refine (Ideal.multiReduction_add_single (φ := .f32) v 0x00000000#32 reduces_S1024x512_S1024 (.inl rfl) rfl (ix1 p)).trans ?_
  show ∑ q : Fin 512, v (reduces_S1024x512_S1024.lift (ix1 p) q) = _
  refine Finset.sum_congr rfl fun q _ => congrArg v ?_
  funext a
  match a with
  | ⟨0, _⟩ => rfl
  | ⟨1, _⟩ => rfl

/-- A positive's weight: the weight times the label of the column. -/
private theorem pay5_apply (x0 : FVec Ideal S1024x512 .bf16) (x1 : FVec Ideal S512x512 .bf16) (x2 : FVec Ideal S1x512 .f32) (p : Fin 1024) (q : Fin 512) :
    k0_pay5 (F := Ideal) x0 x1 x2 (ix2 p q) = k0_pay4 (F := Ideal) x0 x1 (ix2 p q) * x2 (ix2 (0 : Fin 1) q) := by
  unfold k0_pay5
  show k0_pay4 (F := Ideal) x0 x1 (ix2 p q) * broadcastTo S1024x512 (shapeCast S1x512 x2 shapeCasts_S1x512_S1x512) broadcasts_S1x512_S1024x512 (ix2 p q) = _
  rw [shapeCast_self, broadcastTo_1b_ab_apply]

/-- The positives' accumulator after a tile: what it held plus the tile's row sum of positives' weights. -/
private theorem pay12_apply (x0 : FVec Ideal S1024x512 .bf16) (x1 : FVec Ideal S512x512 .bf16) (x2 : FVec Ideal S1x512 .f32)
    (acc : FVec Ideal S1024x1 .f32) (p : Fin 1024) (u : Fin 1) :
    k0_pay12 (F := Ideal) x0 x1 x2 acc (ix2 p u) = acc (ix2 p u) + ∑ q : Fin 512, k0_pay5 (F := Ideal) x0 x1 x2 (ix2 p q) := by
  unfold k0_pay12
  show shapeCast S1024x1 (addf acc _) shapeCasts_S1024x1_S1024x1 (ix2 p u) = _
  rw [shapeCast_self]
  show acc (ix2 p u) + _ = _
  exact congrArg (acc (ix2 p u) + ·) (rowsum_apply (k0_pay5 (F := Ideal) x0 x1 x2) p u)

/-- The negatives' accumulator after a tile: what it held plus the tile's row sum of weights times the mask. -/
private theorem pay1_apply (x0 : FVec Ideal S1024x512 .bf16) (x1 : FVec Ideal S512x512 .bf16) (x3 : FVec Ideal S1x512 .f32)
    (acc : FVec Ideal S1024x1 .f32) (p : Fin 1024) (u : Fin 1) :
    k0_pay1 (F := Ideal) (k0_pay7 (F := Ideal) x0 x1 x3) acc (ix2 p u)
      = acc (ix2 p u) + ∑ q : Fin 512, k0_pay4 (F := Ideal) x0 x1 (ix2 p q) * x3 (ix2 (0 : Fin 1) q) := by
  unfold k0_pay1 k0_pay7
  show shapeCast S1024x1 (addf acc _) shapeCasts_S1024x1_S1024x1 (ix2 p u) = _
  rw [shapeCast_self]
  show acc (ix2 p u) + _ = _
  refine congrArg (acc (ix2 p u) + ·) ((rowsum_apply _ p u).trans (Finset.sum_congr rfl fun q _ => ?_))
  show k0_pay4 (F := Ideal) x0 x1 (ix2 p q) * broadcastTo S1024x512 (shapeCast S1x512 x3 shapeCasts_S1x512_S1x512) broadcasts_S1x512_S1024x512 (ix2 p q) = _
  rw [shapeCast_self, broadcastTo_1b_ab_apply]

/-- The weighted accumulator after a tile: what it held plus the tile's row sum of positives' weights times scores. -/
private theorem pay2_apply (x0 : FVec Ideal S1024x512 .bf16) (x1 : FVec Ideal S512x512 .bf16) (x2 : FVec Ideal S1x512 .f32)
    (acc : FVec Ideal S1024x1 .f32) (p : Fin 1024) (u : Fin 1) :
    k0_pay2 (F := Ideal) (k0_pay6 (F := Ideal) x0 x1 x2) acc (ix2 p u)
      = acc (ix2 p u) + ∑ q : Fin 512, k0_pay5 (F := Ideal) x0 x1 x2 (ix2 p q) * k0_pay3 (F := Ideal) x0 x1 (ix2 p q) := by
  unfold k0_pay2 k0_pay6
  show shapeCast S1024x1 (addf acc _) shapeCasts_S1024x1_S1024x1 (ix2 p u) = _
  rw [shapeCast_self]
  show acc (ix2 p u) + _ = _
  exact congrArg (acc (ix2 p u) + ·) ((rowsum_apply _ p u).trans (Finset.sum_congr rfl fun q _ => rfl))

/-- The three resets store zero. -/
private theorem pay8_apply (i : S1024x1.Idx) : k0_pay8 (F := Ideal) i = 0 := by
  unfold k0_pay8
  show shapeCast S1024x1 (broadcast S1024x1 (Scalar.ofBits (F := Ideal) .f32 0x00000000#32)) shapeCasts_S1024x1_S1024x1 i = 0
  rw [shapeCast_self]
  exact Ideal.ofBits_zero_f32
private theorem pay9_apply (i : S1024x1.Idx) : k0_pay9 (F := Ideal) i = 0 := by
  unfold k0_pay9
  show shapeCast S1024x1 (broadcast S1024x1 (Scalar.ofBits (F := Ideal) .f32 0x00000000#32)) shapeCasts_S1024x1_S1024x1 i = 0
  rw [shapeCast_self]
  exact Ideal.ofBits_zero_f32
private theorem pay10_apply (i : S1024x1.Idx) : k0_pay10 (F := Ideal) i = 0 := by
  unfold k0_pay10
  show shapeCast S1024x1 (broadcast S1024x1 (Scalar.ofBits (F := Ideal) .f32 0x00000000#32)) shapeCasts_S1024x1_S1024x1 i = 0
  rw [shapeCast_self]
  exact Ideal.ofBits_zero_f32

/-! ## The blocks the body loads, as rows and columns of the arrays -/

variable (m : (ℓ : Loc nD τ sig) → Buf (Elt Ideal) ℓ)

/-- The text block, the image block, the label block and the mask block at a point. -/
private abbrev tblk (c : Dev nD) (t : Fin cfg0.N) : FVec Ideal S1024x512 .bf16 := iblk m c 0 t
private abbrev vblk (c : Dev nD) (t : Fin cfg0.N) : FVec Ideal S512x512 .bf16 := iblk m c 1 t
private abbrev lblk (c : Dev nD) (t : Fin cfg0.N) : FVec Ideal S1x512 .f32 := iblk m c 2 t
private abbrev mblk (c : Dev nD) (t : Fin cfg0.N) : FVec Ideal S1x512 .f32 := iblk m c 3 t

/-- Point t = 8 i + j reads row tile i of the text rows, row tile j of the image rows, column tile j of the label and
    mask rows, and writes row tile i of the three sums. -/
private theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val % 8
    ∧ win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

private theorem tblk_apply (c : Dev nD) (t : Fin cfg0.N) (p : Fin 1024) (k : Fin 512) (r : Fin 4096)
    (hr : r.val = 1024 * (t.val / 8) + p.val) : tblk m c t (ix2 p k) = Tk m c r k := by
  obtain ⟨e0, e1, -⟩ := idx_facts t
  unfold tblk iblk Tk
  rw [View.read_apply]
  show V m c main_v17 _ = V m c main_v17 _
  refine congrArg (V m c main_v17) (funext fun a => Fin.ext ?_)
  match a with
  | ⟨0, _⟩ => show win0_0.index t 0 * 1024 + 1 * p.val = r.val; rw [e0, hr]; omega
  | ⟨1, _⟩ => show win0_0.index t 1 * 512 + 1 * k.val = k.val; rw [e1]; omega

private theorem vblk_apply (c : Dev nD) (t : Fin cfg0.N) (q : Fin 512) (k : Fin 512) (r : Fin 4096)
    (hr : r.val = 512 * (t.val % 8) + q.val) : vblk m c t (ix2 q k) = Vk m c r k := by
  obtain ⟨-, -, e0, e1, -⟩ := idx_facts t
  unfold vblk iblk Vk
  rw [View.read_apply]
  show V m c main_v16 _ = V m c main_v16 _
  refine congrArg (V m c main_v16) (funext fun a => Fin.ext ?_)
  match a with
  | ⟨0, _⟩ => show win0_1.index t 0 * 512 + 1 * q.val = r.val; rw [e0, hr]; omega
  | ⟨1, _⟩ => show win0_1.index t 1 * 512 + 1 * k.val = k.val; rw [e1]; omega

private theorem lblk_apply (c : Dev nD) (t : Fin cfg0.N) (q : Fin 512) (j : Fin 4096)
    (hj : j.val = 512 * (t.val % 8) + q.val) : lblk m c t (ix2 (0 : Fin 1) q) = Lk m c j := by
  obtain ⟨-, -, -, -, e0, e1, -⟩ := idx_facts t
  unfold lblk iblk Lk
  rw [View.read_apply]
  show V m c main_v26 _ = V m c main_v26 _
  refine congrArg (V m c main_v26) (funext fun a => Fin.ext ?_)
  match a with
  | ⟨0, _⟩ => show win0_2.index t 0 * 1 + 1 * 0 = 0; rw [e0]
  | ⟨1, _⟩ => show win0_2.index t 1 * 512 + 1 * q.val = j.val; rw [e1, hj]; omega

private theorem mblk_apply (c : Dev nD) (t : Fin cfg0.N) (q : Fin 512) (j : Fin 4096)
    (hj : j.val = 512 * (t.val % 8) + q.val) : mblk m c t (ix2 (0 : Fin 1) q) = Mk m c j := by
  obtain ⟨-, -, -, -, -, -, e0, e1, -⟩ := idx_facts t
  unfold mblk iblk Mk
  rw [View.read_apply]
  show V m c main_v27 _ = V m c main_v27 _
  refine congrArg (V m c main_v27) (funext fun a => Fin.ext ?_)
  match a with
  | ⟨0, _⟩ => show win0_3.index t 0 * 1 + 1 * 0 = 0; rw [e0]
  | ⟨1, _⟩ => show win0_3.index t 1 * 512 + 1 * q.val = j.val; rw [e1, hj]; omega

/-- A tile's score and weight are the array's: row 1024 i + p against column 512 j + q. -/
private theorem tile_score (c : Dev nD) (t : Fin cfg0.N) (p : Fin 1024) (q : Fin 512) (r cc : Fin 4096)
    (hr : r.val = 1024 * (t.val / 8) + p.val) (hc : cc.val = 512 * (t.val % 8) + q.val) :
    k0_pay3 (F := Ideal) (tblk m c t) (vblk m c t) (ix2 p q) = Spec.score (Tk m c) (Vk m c) r cc := by
  refine (pay3_apply (tblk m c t) (vblk m c t) p q).trans ?_
  unfold Spec.score
  refine Finset.sum_congr rfl fun k _ => ?_
  rw [tblk_apply m c t p k r hr, vblk_apply m c t q k cc hc]

private theorem tile_e (c : Dev nD) (t : Fin cfg0.N) (p : Fin 1024) (q : Fin 512) (r cc : Fin 4096)
    (hr : r.val = 1024 * (t.val / 8) + p.val) (hc : cc.val = 512 * (t.val % 8) + q.val) :
    k0_pay4 (F := Ideal) (tblk m c t) (vblk m c t) (ix2 p q) = Spec.e (Tk m c) (Vk m c) r cc := by
  refine (pay4_apply (tblk m c t) (vblk m c t) p q).trans ?_
  rw [tile_score m c t p q r cc hr hc]
  rfl

/-! ## A sum built up along a run of eight points -/

/-- A quantity that restarts at every multiple of eight and grows by one addend at every other point is, at point n,
    the sum of the addends of its run 8 (n / 8) … n. -/
private theorem run_sum {N : ℕ} (f : (n : ℕ) → n < N → EReal) (M : ℕ → EReal)
    (h0 : ∀ (n : ℕ) (h : n < N), n % 8 = 0 → f n h = M n)
    (hs : ∀ (n : ℕ) (h : n + 1 < N), ¬(n + 1) % 8 = 0 → f (n + 1) h = f n (Nat.lt_of_succ_lt h) + M (n + 1)) :
    ∀ (n : ℕ) (h : n < N), f n h = ∑ s ∈ Finset.range (n % 8 + 1), M (8 * (n / 8) + s)
  | 0, h => by
    rw [h0 0 h rfl]
    simp
  | n + 1, h => by
    by_cases hm : (n + 1) % 8 = 0
    · rw [h0 _ h hm, hm, Finset.sum_range_one]
      congr 1
      omega
    · have e1 : (n + 1) % 8 = n % 8 + 1 := by omega
      have e2 : (n + 1) / 8 = n / 8 := by omega
      rw [hs n h hm, run_sum f M h0 hs n (Nat.lt_of_succ_lt h), e1, e2, Finset.sum_range_succ _ (n % 8 + 1)]
      congr 2
      omega

/-! ## What each kind of point leaves in the three accumulators -/

/-- A first column tile: the accumulators are reset to zero, then take the tile's row sums. -/
private theorem step_A (c : Dev nD) (t : Fin cfg0.N) (h0 : t.val % 8 = 0) :
    (outsAt0 m c t.val t.isLt).2.2.2.2.2.1 = k0_pay12 (F := Ideal) (tblk m c t) (vblk m c t) (lblk m c t) (k0_pay8 (F := Ideal))
    ∧ (outsAt0 m c t.val t.isLt).2.2.2.2.2.2.1 = k0_pay1 (F := Ideal) (k0_pay7 (F := Ideal) (tblk m c t) (vblk m c t) (mblk m c t)) (k0_pay9 (F := Ideal))
    ∧ (outsAt0 m c t.val t.isLt).2.2.2.2.2.2.2.1 = k0_pay2 (F := Ideal) (k0_pay6 (F := Ideal) (tblk m c t) (vblk m c t) (lblk m c t)) (k0_pay10 (F := Ideal)) := by
  have h1 : ¬t.val % 8 = 7 := by omega
  rw [outsAt0_A m c t h0 h1]
  dsimp only
  exact ⟨KP.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    KP.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    KP.sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)⟩

/-- A column tile in between: each accumulator is what the point before left plus the tile's row sum. -/
private theorem step_B (c : Dev nD) (t : Fin cfg0.N) (h0 : ¬t.val % 8 = 0) (h1 : ¬t.val % 8 = 7) :
    (outsAt0 m c t.val t.isLt).2.2.2.2.2.1 = k0_pay12 (F := Ideal) (tblk m c t) (vblk m c t) (lblk m c t) (outsAt0 m c (t.val - 1) (Nat.lt_of_le_of_lt (Nat.sub_le _ _) t.isLt)).2.2.2.2.2.1
    ∧ (outsAt0 m c t.val t.isLt).2.2.2.2.2.2.1 = k0_pay1 (F := Ideal) (k0_pay7 (F := Ideal) (tblk m c t) (vblk m c t) (mblk m c t)) (outsAt0 m c (t.val - 1) (Nat.lt_of_le_of_lt (Nat.sub_le _ _) t.isLt)).2.2.2.2.2.2.1
    ∧ (outsAt0 m c t.val t.isLt).2.2.2.2.2.2.2.1 = k0_pay2 (F := Ideal) (k0_pay6 (F := Ideal) (tblk m c t) (vblk m c t) (lblk m c t)) (outsAt0 m c (t.val - 1) (Nat.lt_of_le_of_lt (Nat.sub_le _ _) t.isLt)).2.2.2.2.2.2.2.1 := by
  rw [outsAt0_B m c t h0 h1]
  dsimp only
  exact ⟨KP.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    KP.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
    KP.sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2⟩

/-- The last column tile: the same update, and the three output blocks are copies of the updated accumulators. -/
private theorem step_C (c : Dev nD) (t : Fin cfg0.N) (h0 : ¬t.val % 8 = 0) (h1 : t.val % 8 = 7) :
    ((outsAt0 m c t.val t.isLt).2.1 = k0_pay12 (F := Ideal) (tblk m c t) (vblk m c t) (lblk m c t) (outsAt0 m c (t.val - 1) (Nat.lt_of_le_of_lt (Nat.sub_le _ _) t.isLt)).2.2.2.2.2.1
      ∧ (outsAt0 m c t.val t.isLt).2.2.1 = k0_pay1 (F := Ideal) (k0_pay7 (F := Ideal) (tblk m c t) (vblk m c t) (mblk m c t)) (outsAt0 m c (t.val - 1) (Nat.lt_of_le_of_lt (Nat.sub_le _ _) t.isLt)).2.2.2.2.2.2.1
      ∧ (outsAt0 m c t.val t.isLt).2.2.2.1 = k0_pay2 (F := Ideal) (k0_pay6 (F := Ideal) (tblk m c t) (vblk m c t) (lblk m c t)) (outsAt0 m c (t.val - 1) (Nat.lt_of_le_of_lt (Nat.sub_le _ _) t.isLt)).2.2.2.2.2.2.2.1)
    ∧ ((outsAt0 m c t.val t.isLt).2.2.2.2.2.1 = k0_pay12 (F := Ideal) (tblk m c t) (vblk m c t) (lblk m c t) (outsAt0 m c (t.val - 1) (Nat.lt_of_le_of_lt (Nat.sub_le _ _) t.isLt)).2.2.2.2.2.1
      ∧ (outsAt0 m c t.val t.isLt).2.2.2.2.2.2.1 = k0_pay1 (F := Ideal) (k0_pay7 (F := Ideal) (tblk m c t) (vblk m c t) (mblk m c t)) (outsAt0 m c (t.val - 1) (Nat.lt_of_le_of_lt (Nat.sub_le _ _) t.isLt)).2.2.2.2.2.2.1
      ∧ (outsAt0 m c t.val t.isLt).2.2.2.2.2.2.2.1 = k0_pay2 (F := Ideal) (k0_pay6 (F := Ideal) (tblk m c t) (vblk m c t) (lblk m c t)) (outsAt0 m c (t.val - 1) (Nat.lt_of_le_of_lt (Nat.sub_le _ _) t.isLt)).2.2.2.2.2.2.2.1) := by
  rw [outsAt0_C m c t h0 h1]
  dsimp only
  exact ⟨⟨KP.out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
      KP.out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
      KP.out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2⟩,
    ⟨KP.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
      KP.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2,
      KP.sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2⟩⟩

/-! ## The positives' weights -/

/-- Point n's tile's contribution to local row p (nothing past the grid). -/
private def posAdd (c : Dev nD) (p : Fin 1024) (n : ℕ) : EReal :=
  if h : n < cfg0.N then ∑ q : Fin 512, k0_pay5 (F := Ideal) (tblk m c ⟨n, h⟩) (vblk m c ⟨n, h⟩) (lblk m c ⟨n, h⟩) (ix2 p q) else 0

/-- The accumulator after point n, at local row p: the contributions of the column tiles of its run so far. -/
private theorem posAcc_eq (c : Dev nD) (p : Fin 1024) : ∀ (n : ℕ) (h : n < cfg0.N),
    (outsAt0 m c n h).2.2.2.2.2.1 (ix2 p (0 : Fin 1)) = ∑ s ∈ Finset.range (n % 8 + 1), posAdd m c p (8 * (n / 8) + s) :=
  run_sum (fun n h => (outsAt0 m c n h).2.2.2.2.2.1 (ix2 p (0 : Fin 1))) (posAdd m c p)
    (fun n h hn => by
      show (outsAt0 m c n h).2.2.2.2.2.1 (ix2 p (0 : Fin 1)) = posAdd m c p n
      have e := (step_A m c ⟨n, h⟩ hn).1
      refine (congrFun e (ix2 p (0 : Fin 1))).trans ?_
      refine (pay12_apply (tblk m c ⟨n, h⟩) (vblk m c ⟨n, h⟩) (lblk m c ⟨n, h⟩) (k0_pay8 (F := Ideal)) p (0 : Fin 1)).trans ?_
      rw [pay8_apply, zero_add]
      unfold posAdd
      rw [dif_pos h])
    (fun n h hn => by
      show (outsAt0 m c (n + 1) h).2.2.2.2.2.1 (ix2 p (0 : Fin 1))
        = (outsAt0 m c n (Nat.lt_of_succ_lt h)).2.2.2.2.2.1 (ix2 p (0 : Fin 1)) + posAdd m c p (n + 1)
      have e : (outsAt0 m c (n + 1) h).2.2.2.2.2.1
          = k0_pay12 (F := Ideal) (tblk m c ⟨n + 1, h⟩) (vblk m c ⟨n + 1, h⟩) (lblk m c ⟨n + 1, h⟩) (outsAt0 m c n (Nat.lt_of_succ_lt h)).2.2.2.2.2.1 := by
        by_cases h7 : (n + 1) % 8 = 7
        · exact (step_C m c ⟨n + 1, h⟩ hn h7).2.1
        · exact (step_B m c ⟨n + 1, h⟩ hn h7).1
      refine (congrFun e (ix2 p (0 : Fin 1))).trans ?_
      refine (pay12_apply (tblk m c ⟨n + 1, h⟩) (vblk m c ⟨n + 1, h⟩) (lblk m c ⟨n + 1, h⟩) (outsAt0 m c n (Nat.lt_of_succ_lt h)).2.2.2.2.2.1 p (0 : Fin 1)).trans ?_
      unfold posAdd
      rw [dif_pos h])

/-- Column tile j of row tile t / 8 contributes, to row r = 1024 (t / 8) + p, the terms of columns 512 j … 512 j + 511. -/
private theorem posAdd_eq (c : Dev nD) (p : Fin 1024) (t : Fin cfg0.N) (j : Fin 8) (r : Fin 4096)
    (hr : r.val = 1024 * (t.val / 8) + p.val) :
    posAdd m c p (8 * (t.val / 8) + j.val)
      = ∑ q : Fin 512, Spec.e (Tk m c) (Vk m c) r ⟨512 * j.val + q.val, Cert.SumSplit.lt_of_run (a := 8) (b := 512) rfl j q⟩ * Lk m c ⟨512 * j.val + q.val, Cert.SumSplit.lt_of_run (a := 8) (b := 512) rfl j q⟩ := by
  have hN : cfg0.N = 32 := N_0
  have hlt : 8 * (t.val / 8) + j.val < cfg0.N := by have := t.isLt; have := j.isLt; omega
  have e1 : (8 * (t.val / 8) + j.val) / 8 = t.val / 8 := by have := j.isLt; omega
  have e2 : (8 * (t.val / 8) + j.val) % 8 = j.val := by have := j.isLt; omega
  unfold posAdd
  rw [dif_pos hlt]
  refine Finset.sum_congr rfl fun q _ => ?_
  generalize htt : (⟨8 * (t.val / 8) + j.val, hlt⟩ : Fin cfg0.N) = tt
  generalize hcc : (⟨512 * j.val + q.val, Cert.SumSplit.lt_of_run (a := 8) (b := 512) rfl j q⟩ : Fin 4096) = cc
  have hv : tt.val = 8 * (t.val / 8) + j.val := by rw [← htt]
  have hr' : r.val = 1024 * (tt.val / 8) + p.val := by rw [hv, e1]; exact hr
  have hc' : cc.val = 512 * (tt.val % 8) + q.val := by rw [hv, e2, ← hcc]
  rw [pay5_apply (tblk m c tt) (vblk m c tt) (lblk m c tt) p q, tile_e m c tt p q r cc hr' hc', lblk_apply m c tt q cc hc']

/-- The block written back at the last column tile of a row tile, at local row p: the whole row's sum. -/
private theorem out5_eq (c : Dev nD) (t : Fin cfg0.N) (h7 : t.val % 8 = 7) (p : Fin 1024) (r : Fin 4096)
    (hr : r.val = 1024 * (t.val / 8) + p.val) :
    (outsAt0 m c t.val t.isLt).2.1 (ix2 p (0 : Fin 1)) = Spec.posSum (Tk m c) (Vk m c) (Lk m c) r := by
  have h0 : ¬t.val % 8 = 0 := by omega
  have h8 : t.val % 8 + 1 = 8 := by omega
  have eo := (step_C m c t h0 h7).1.1
  have es := (step_C m c t h0 h7).2.1
  rw [eo, ← es, posAcc_eq m c p t.val t.isLt, h8, Finset.sum_range]
  refine Eq.trans ?_ (Cert.Algebra.sum_tiles (fun cc => Spec.e (Tk m c) (Vk m c) r cc * Lk m c cc)).symm
  exact Finset.sum_congr rfl fun j _ => posAdd_eq m c p t j r hr

/-- The positives' weights as a column of 4096. -/
private def G5 (c : Dev nD) : S4096x1.Idx → EReal := fun i => Spec.posSum (Tk m c) (Vk m c) (Lk m c) ⟨(i 0).val, idx2_lt0 i⟩

/-- Every write-back of the window writes its block of that column. -/
private theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  obtain ⟨-, -, -, -, -, -, -, -, e0, e1, -⟩ := idx_facts t
  show (cfg0.win 5).cut (grid0.coords t) ((dats m 0 c).after 5 t) = _
  rw [after0_5]
  funext y
  rw [View.read_apply]
  have hp : (y 0).val < 1024 := (y 0).isLt
  have hx : (win0_5.xinj (grid0.coords t) y : S1024x1.Idx) = ix2 (⟨(y 0).val, hp⟩ : Fin 1024) (0 : Fin 1) := by
    funext a
    match a with
    | ⟨0, _⟩ => rfl
    | ⟨1, _⟩ =>
      have hu : (y 1).val < 1 := (y 1).isLt
      exact Fin.ext (show (y 1).val = 0 by omega)
  have hlt : 1024 * (t.val / 8) + (y 0).val < 4096 := by have := t.isLt; have hN : cfg0.N = 32 := N_0; omega
  show (outsAt0 m c t.val t.isLt).2.1 (win0_5.xinj (grid0.coords t) y) = _
  rw [hx, out5_eq m c t h7 ⟨(y 0).val, hp⟩ ⟨1024 * (t.val / 8) + (y 0).val, hlt⟩ rfl]
  unfold G5
  refine congrArg (Spec.posSum (Tk m c) (Vk m c) (Lk m c)) (Fin.ext ?_)
  show 1024 * (t.val / 8) + (y 0).val = win0_5.index t 0 * 1024 + 1 * (y 0).val
  rw [e0]
  omega

/-- The sum of the positives' weights. -/
theorem arr5 (c : Dev nD) (r : Fin 4096) :
    ((dats m 0 c).arrAt 5 cfg0.N : S4096x1.Idx → EReal) (ix2 r (0 : Fin 1)) = Spec.posSum (Tk m c) (Vk m c) (Lk m c) r := by
  have hN : cfg0.N = 32 := N_0
  have hr : r.val < 4096 := r.isLt
  have hlt : 8 * (r.val / 1024) + 7 < cfg0.N := by omega
  obtain ⟨-, -, -, -, -, -, -, -, e0, e1, -⟩ := idx_facts ⟨8 * (r.val / 1024) + 7, hlt⟩
  have hf : (cfg0.win 5).flush ⟨8 * (r.val / 1024) + 7, hlt⟩ = true :=
    (flush0_5 ⟨8 * (r.val / 1024) + 7, hlt⟩).mpr (by show (8 * (r.val / 1024) + 7) % 8 = 7; omega)
  refine ((dats m 0 c).arrAt_apply_of_mem 5 (G5 m c) (flushed5_eq m c) cfg0.N ⟨8 * (r.val / 1024) + 7, hlt⟩
    (ix2 r (0 : Fin 1)) hlt hf ?_).trans rfl
  show ix2 r (0 : Fin 1) ∈ ((View.whole main_v28_1).slice (win0_5.rect ⟨8 * (r.val / 1024) + 7, hlt⟩)).set
  rw [View.set_slice_whole, Rect.mem_set_unit]
  intro a
  have q0 : win0_5.index ⟨8 * (r.val / 1024) + 7, hlt⟩ 0 = r.val / 1024 := by rw [e0]; show (8 * (r.val / 1024) + 7) / 8 = _; omega
  match a with
  | ⟨0, _⟩ =>
    show win0_5.index ⟨8 * (r.val / 1024) + 7, hlt⟩ 0 * 1024 ≤ r.val ∧ r.val < win0_5.index ⟨8 * (r.val / 1024) + 7, hlt⟩ 0 * 1024 + 1024
    rw [q0]; omega
  | ⟨1, _⟩ =>
    show win0_5.index ⟨8 * (r.val / 1024) + 7, hlt⟩ 1 * 1 ≤ 0 ∧ 0 < win0_5.index ⟨8 * (r.val / 1024) + 7, hlt⟩ 1 * 1 + 1
    rw [e1]; omega

/-! ## The negatives' weights -/

/-- Point n's tile's contribution to local row p (nothing past the grid). -/
private def negAdd (c : Dev nD) (p : Fin 1024) (n : ℕ) : EReal :=
  if h : n < cfg0.N then ∑ q : Fin 512, k0_pay4 (F := Ideal) (tblk m c ⟨n, h⟩) (vblk m c ⟨n, h⟩) (ix2 p q) * mblk m c ⟨n, h⟩ (ix2 (0 : Fin 1) q) else 0

/-- The accumulator after point n, at local row p: the contributions of the column tiles of its run so far. -/
private theorem negAcc_eq (c : Dev nD) (p : Fin 1024) : ∀ (n : ℕ) (h : n < cfg0.N),
    (outsAt0 m c n h).2.2.2.2.2.2.1 (ix2 p (0 : Fin 1)) = ∑ s ∈ Finset.range (n % 8 + 1), negAdd m c p (8 * (n / 8) + s) :=
  run_sum (fun n h => (outsAt0 m c n h).2.2.2.2.2.2.1 (ix2 p (0 : Fin 1))) (negAdd m c p)
    (fun n h hn => by
      show (outsAt0 m c n h).2.2.2.2.2.2.1 (ix2 p (0 : Fin 1)) = negAdd m c p n
      have e := (step_A m c ⟨n, h⟩ hn).2.1
      refine (congrFun e (ix2 p (0 : Fin 1))).trans ?_
      refine (pay1_apply (tblk m c ⟨n, h⟩) (vblk m c ⟨n, h⟩) (mblk m c ⟨n, h⟩) (k0_pay9 (F := Ideal)) p (0 : Fin 1)).trans ?_
      rw [pay9_apply, zero_add]
      unfold negAdd
      rw [dif_pos h])
    (fun n h hn => by
      show (outsAt0 m c (n + 1) h).2.2.2.2.2.2.1 (ix2 p (0 : Fin 1))
        = (outsAt0 m c n (Nat.lt_of_succ_lt h)).2.2.2.2.2.2.1 (ix2 p (0 : Fin 1)) + negAdd m c p (n + 1)
      have e : (outsAt0 m c (n + 1) h).2.2.2.2.2.2.1
          = k0_pay1 (F := Ideal) (k0_pay7 (F := Ideal) (tblk m c ⟨n + 1, h⟩) (vblk m c ⟨n + 1, h⟩) (mblk m c ⟨n + 1, h⟩)) (outsAt0 m c n (Nat.lt_of_succ_lt h)).2.2.2.2.2.2.1 := by
        by_cases h7 : (n + 1) % 8 = 7
        · exact (step_C m c ⟨n + 1, h⟩ hn h7).2.2.1
        · exact (step_B m c ⟨n + 1, h⟩ hn h7).2.1
      refine (congrFun e (ix2 p (0 : Fin 1))).trans ?_
      refine (pay1_apply (tblk m c ⟨n + 1, h⟩) (vblk m c ⟨n + 1, h⟩) (mblk m c ⟨n + 1, h⟩) (outsAt0 m c n (Nat.lt_of_succ_lt h)).2.2.2.2.2.2.1 p (0 : Fin 1)).trans ?_
      unfold negAdd
      rw [dif_pos h])

/-- Column tile j of row tile t / 8 contributes, to row r = 1024 (t / 8) + p, the terms of columns 512 j … 512 j + 511. -/
private theorem negAdd_eq (c : Dev nD) (p : Fin 1024) (t : Fin cfg0.N) (j : Fin 8) (r : Fin 4096)
    (hr : r.val = 1024 * (t.val / 8) + p.val) :
    negAdd m c p (8 * (t.val / 8) + j.val)
      = ∑ q : Fin 512, Spec.e (Tk m c) (Vk m c) r ⟨512 * j.val + q.val, Cert.SumSplit.lt_of_run (a := 8) (b := 512) rfl j q⟩ * Mk m c ⟨512 * j.val + q.val, Cert.SumSplit.lt_of_run (a := 8) (b := 512) rfl j q⟩ := by
  have hN : cfg0.N = 32 := N_0
  have hlt : 8 * (t.val / 8) + j.val < cfg0.N := by have := t.isLt; have := j.isLt; omega
  have e1 : (8 * (t.val / 8) + j.val) / 8 = t.val / 8 := by have := j.isLt; omega
  have e2 : (8 * (t.val / 8) + j.val) % 8 = j.val := by have := j.isLt; omega
  unfold negAdd
  rw [dif_pos hlt]
  refine Finset.sum_congr rfl fun q _ => ?_
  generalize htt : (⟨8 * (t.val / 8) + j.val, hlt⟩ : Fin cfg0.N) = tt
  generalize hcc : (⟨512 * j.val + q.val, Cert.SumSplit.lt_of_run (a := 8) (b := 512) rfl j q⟩ : Fin 4096) = cc
  have hv : tt.val = 8 * (t.val / 8) + j.val := by rw [← htt]
  have hr' : r.val = 1024 * (tt.val / 8) + p.val := by rw [hv, e1]; exact hr
  have hc' : cc.val = 512 * (tt.val % 8) + q.val := by rw [hv, e2, ← hcc]
  rw [tile_e m c tt p q r cc hr' hc', mblk_apply m c tt q cc hc']

/-- The block written back at the last column tile of a row tile, at local row p: the whole row's sum. -/
private theorem out6_eq (c : Dev nD) (t : Fin cfg0.N) (h7 : t.val % 8 = 7) (p : Fin 1024) (r : Fin 4096)
    (hr : r.val = 1024 * (t.val / 8) + p.val) :
    (outsAt0 m c t.val t.isLt).2.2.1 (ix2 p (0 : Fin 1)) = Spec.negSum (Tk m c) (Vk m c) (Mk m c) r := by
  have h0 : ¬t.val % 8 = 0 := by omega
  have h8 : t.val % 8 + 1 = 8 := by omega
  have eo := (step_C m c t h0 h7).1.2.1
  have es := (step_C m c t h0 h7).2.2.1
  rw [eo, ← es, negAcc_eq m c p t.val t.isLt, h8, Finset.sum_range]
  refine Eq.trans ?_ (Cert.Algebra.sum_tiles (fun cc => Spec.e (Tk m c) (Vk m c) r cc * Mk m c cc)).symm
  exact Finset.sum_congr rfl fun j _ => negAdd_eq m c p t j r hr

/-- The negatives' weights as a column of 4096. -/
private def G6 (c : Dev nD) : S4096x1.Idx → EReal := fun i => Spec.negSum (Tk m c) (Vk m c) (Mk m c) ⟨(i 0).val, idx2_lt0 i⟩

/-- Every write-back of the window writes its block of that column. -/
private theorem flushed6_eq (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  obtain ⟨-, -, -, -, -, -, -, -, -, -, e0, e1, -⟩ := idx_facts t
  show (cfg0.win 6).cut (grid0.coords t) ((dats m 0 c).after 6 t) = _
  rw [after0_6]
  funext y
  rw [View.read_apply]
  have hp : (y 0).val < 1024 := (y 0).isLt
  have hx : (win0_6.xinj (grid0.coords t) y : S1024x1.Idx) = ix2 (⟨(y 0).val, hp⟩ : Fin 1024) (0 : Fin 1) := by
    funext a
    match a with
    | ⟨0, _⟩ => rfl
    | ⟨1, _⟩ =>
      have hu : (y 1).val < 1 := (y 1).isLt
      exact Fin.ext (show (y 1).val = 0 by omega)
  have hlt : 1024 * (t.val / 8) + (y 0).val < 4096 := by have := t.isLt; have hN : cfg0.N = 32 := N_0; omega
  show (outsAt0 m c t.val t.isLt).2.2.1 (win0_6.xinj (grid0.coords t) y) = _
  rw [hx, out6_eq m c t h7 ⟨(y 0).val, hp⟩ ⟨1024 * (t.val / 8) + (y 0).val, hlt⟩ rfl]
  unfold G6
  refine congrArg (Spec.negSum (Tk m c) (Vk m c) (Mk m c)) (Fin.ext ?_)
  show 1024 * (t.val / 8) + (y 0).val = win0_6.index t 0 * 1024 + 1 * (y 0).val
  rw [e0]
  omega

/-- The sum of the negatives' weights. -/
theorem arr6 (c : Dev nD) (r : Fin 4096) :
    ((dats m 0 c).arrAt 6 cfg0.N : S4096x1.Idx → EReal) (ix2 r (0 : Fin 1)) = Spec.negSum (Tk m c) (Vk m c) (Mk m c) r := by
  have hN : cfg0.N = 32 := N_0
  have hr : r.val < 4096 := r.isLt
  have hlt : 8 * (r.val / 1024) + 7 < cfg0.N := by omega
  obtain ⟨-, -, -, -, -, -, -, -, -, -, e0, e1, -⟩ := idx_facts ⟨8 * (r.val / 1024) + 7, hlt⟩
  have hf : (cfg0.win 6).flush ⟨8 * (r.val / 1024) + 7, hlt⟩ = true :=
    (flush0_6 ⟨8 * (r.val / 1024) + 7, hlt⟩).mpr (by show (8 * (r.val / 1024) + 7) % 8 = 7; omega)
  refine ((dats m 0 c).arrAt_apply_of_mem 6 (G6 m c) (flushed6_eq m c) cfg0.N ⟨8 * (r.val / 1024) + 7, hlt⟩
    (ix2 r (0 : Fin 1)) hlt hf ?_).trans rfl
  show ix2 r (0 : Fin 1) ∈ ((View.whole main_v28_2).slice (win0_6.rect ⟨8 * (r.val / 1024) + 7, hlt⟩)).set
  rw [View.set_slice_whole, Rect.mem_set_unit]
  intro a
  have q0 : win0_6.index ⟨8 * (r.val / 1024) + 7, hlt⟩ 0 = r.val / 1024 := by rw [e0]; show (8 * (r.val / 1024) + 7) / 8 = _; omega
  match a with
  | ⟨0, _⟩ =>
    show win0_6.index ⟨8 * (r.val / 1024) + 7, hlt⟩ 0 * 1024 ≤ r.val ∧ r.val < win0_6.index ⟨8 * (r.val / 1024) + 7, hlt⟩ 0 * 1024 + 1024
    rw [q0]; omega
  | ⟨1, _⟩ =>
    show win0_6.index ⟨8 * (r.val / 1024) + 7, hlt⟩ 1 * 1 ≤ 0 ∧ 0 < win0_6.index ⟨8 * (r.val / 1024) + 7, hlt⟩ 1 * 1 + 1
    rw [e1]; omega

/-! ## The positives' weighted scores -/

/-- Point n's tile's contribution to local row p (nothing past the grid). -/
private def wgtAdd (c : Dev nD) (p : Fin 1024) (n : ℕ) : EReal :=
  if h : n < cfg0.N then ∑ q : Fin 512, k0_pay5 (F := Ideal) (tblk m c ⟨n, h⟩) (vblk m c ⟨n, h⟩) (lblk m c ⟨n, h⟩) (ix2 p q) * k0_pay3 (F := Ideal) (tblk m c ⟨n, h⟩) (vblk m c ⟨n, h⟩) (ix2 p q) else 0

/-- The accumulator after point n, at local row p: the contributions of the column tiles of its run so far. -/
private theorem wgtAcc_eq (c : Dev nD) (p : Fin 1024) : ∀ (n : ℕ) (h : n < cfg0.N),
    (outsAt0 m c n h).2.2.2.2.2.2.2.1 (ix2 p (0 : Fin 1)) = ∑ s ∈ Finset.range (n % 8 + 1), wgtAdd m c p (8 * (n / 8) + s) :=
  run_sum (fun n h => (outsAt0 m c n h).2.2.2.2.2.2.2.1 (ix2 p (0 : Fin 1))) (wgtAdd m c p)
    (fun n h hn => by
      show (outsAt0 m c n h).2.2.2.2.2.2.2.1 (ix2 p (0 : Fin 1)) = wgtAdd m c p n
      have e := (step_A m c ⟨n, h⟩ hn).2.2
      refine (congrFun e (ix2 p (0 : Fin 1))).trans ?_
      refine (pay2_apply (tblk m c ⟨n, h⟩) (vblk m c ⟨n, h⟩) (lblk m c ⟨n, h⟩) (k0_pay10 (F := Ideal)) p (0 : Fin 1)).trans ?_
      rw [pay10_apply, zero_add]
      unfold wgtAdd
      rw [dif_pos h])
    (fun n h hn => by
      show (outsAt0 m c (n + 1) h).2.2.2.2.2.2.2.1 (ix2 p (0 : Fin 1))
        = (outsAt0 m c n (Nat.lt_of_succ_lt h)).2.2.2.2.2.2.2.1 (ix2 p (0 : Fin 1)) + wgtAdd m c p (n + 1)
      have e : (outsAt0 m c (n + 1) h).2.2.2.2.2.2.2.1
          = k0_pay2 (F := Ideal) (k0_pay6 (F := Ideal) (tblk m c ⟨n + 1, h⟩) (vblk m c ⟨n + 1, h⟩) (lblk m c ⟨n + 1, h⟩)) (outsAt0 m c n (Nat.lt_of_succ_lt h)).2.2.2.2.2.2.2.1 := by
        by_cases h7 : (n + 1) % 8 = 7
        · exact (step_C m c ⟨n + 1, h⟩ hn h7).2.2.2
        · exact (step_B m c ⟨n + 1, h⟩ hn h7).2.2
      refine (congrFun e (ix2 p (0 : Fin 1))).trans ?_
      refine (pay2_apply (tblk m c ⟨n + 1, h⟩) (vblk m c ⟨n + 1, h⟩) (lblk m c ⟨n + 1, h⟩) (outsAt0 m c n (Nat.lt_of_succ_lt h)).2.2.2.2.2.2.2.1 p (0 : Fin 1)).trans ?_
      unfold wgtAdd
      rw [dif_pos h])

/-- Column tile j of row tile t / 8 contributes, to row r = 1024 (t / 8) + p, the terms of columns 512 j … 512 j + 511. -/
private theorem wgtAdd_eq (c : Dev nD) (p : Fin 1024) (t : Fin cfg0.N) (j : Fin 8) (r : Fin 4096)
    (hr : r.val = 1024 * (t.val / 8) + p.val) :
    wgtAdd m c p (8 * (t.val / 8) + j.val)
      = ∑ q : Fin 512, Spec.e (Tk m c) (Vk m c) r ⟨512 * j.val + q.val, Cert.SumSplit.lt_of_run (a := 8) (b := 512) rfl j q⟩ * Lk m c ⟨512 * j.val + q.val, Cert.SumSplit.lt_of_run (a := 8) (b := 512) rfl j q⟩ * Spec.score (Tk m c) (Vk m c) r ⟨512 * j.val + q.val, Cert.SumSplit.lt_of_run (a := 8) (b := 512) rfl j q⟩ := by
  have hN : cfg0.N = 32 := N_0
  have hlt : 8 * (t.val / 8) + j.val < cfg0.N := by have := t.isLt; have := j.isLt; omega
  have e1 : (8 * (t.val / 8) + j.val) / 8 = t.val / 8 := by have := j.isLt; omega
  have e2 : (8 * (t.val / 8) + j.val) % 8 = j.val := by have := j.isLt; omega
  unfold wgtAdd
  rw [dif_pos hlt]
  refine Finset.sum_congr rfl fun q _ => ?_
  generalize htt : (⟨8 * (t.val / 8) + j.val, hlt⟩ : Fin cfg0.N) = tt
  generalize hcc : (⟨512 * j.val + q.val, Cert.SumSplit.lt_of_run (a := 8) (b := 512) rfl j q⟩ : Fin 4096) = cc
  have hv : tt.val = 8 * (t.val / 8) + j.val := by rw [← htt]
  have hr' : r.val = 1024 * (tt.val / 8) + p.val := by rw [hv, e1]; exact hr
  have hc' : cc.val = 512 * (tt.val % 8) + q.val := by rw [hv, e2, ← hcc]
  rw [pay5_apply (tblk m c tt) (vblk m c tt) (lblk m c tt) p q, tile_e m c tt p q r cc hr' hc', lblk_apply m c tt q cc hc', tile_score m c tt p q r cc hr' hc']

/-- The block written back at the last column tile of a row tile, at local row p: the whole row's sum. -/
private theorem out7_eq (c : Dev nD) (t : Fin cfg0.N) (h7 : t.val % 8 = 7) (p : Fin 1024) (r : Fin 4096)
    (hr : r.val = 1024 * (t.val / 8) + p.val) :
    (outsAt0 m c t.val t.isLt).2.2.2.1 (ix2 p (0 : Fin 1)) = Spec.posW (Tk m c) (Vk m c) (Lk m c) r := by
  have h0 : ¬t.val % 8 = 0 := by omega
  have h8 : t.val % 8 + 1 = 8 := by omega
  have eo := (step_C m c t h0 h7).1.2.2
  have es := (step_C m c t h0 h7).2.2.2
  rw [eo, ← es, wgtAcc_eq m c p t.val t.isLt, h8, Finset.sum_range]
  refine Eq.trans ?_ (Cert.Algebra.sum_tiles (fun cc => Spec.e (Tk m c) (Vk m c) r cc * Lk m c cc * Spec.score (Tk m c) (Vk m c) r cc)).symm
  exact Finset.sum_congr rfl fun j _ => wgtAdd_eq m c p t j r hr

/-- The positives' weighted scores as a column of 4096. -/
private def G7 (c : Dev nD) : S4096x1.Idx → EReal := fun i => Spec.posW (Tk m c) (Vk m c) (Lk m c) ⟨(i 0).val, idx2_lt0 i⟩

/-- Every write-back of the window writes its block of that column. -/
private theorem flushed7_eq (c : Dev nD) (t : Fin cfg0.N) (hf : (cfg0.win 7).flush t = true) :
    (dats m 0 c).flushed 7 t = ((cfg0.win 7).blk t).view.read (Elt Ideal) (G7 m c) := by
  have h7 : t.val % 8 = 7 := (flush0_7 t).mp hf
  obtain ⟨-, -, -, -, -, -, -, -, -, -, -, -, e0, e1⟩ := idx_facts t
  show (cfg0.win 7).cut (grid0.coords t) ((dats m 0 c).after 7 t) = _
  rw [after0_7]
  funext y
  rw [View.read_apply]
  have hp : (y 0).val < 1024 := (y 0).isLt
  have hx : (win0_7.xinj (grid0.coords t) y : S1024x1.Idx) = ix2 (⟨(y 0).val, hp⟩ : Fin 1024) (0 : Fin 1) := by
    funext a
    match a with
    | ⟨0, _⟩ => rfl
    | ⟨1, _⟩ =>
      have hu : (y 1).val < 1 := (y 1).isLt
      exact Fin.ext (show (y 1).val = 0 by omega)
  have hlt : 1024 * (t.val / 8) + (y 0).val < 4096 := by have := t.isLt; have hN : cfg0.N = 32 := N_0; omega
  show (outsAt0 m c t.val t.isLt).2.2.2.1 (win0_7.xinj (grid0.coords t) y) = _
  rw [hx, out7_eq m c t h7 ⟨(y 0).val, hp⟩ ⟨1024 * (t.val / 8) + (y 0).val, hlt⟩ rfl]
  unfold G7
  refine congrArg (Spec.posW (Tk m c) (Vk m c) (Lk m c)) (Fin.ext ?_)
  show 1024 * (t.val / 8) + (y 0).val = win0_7.index t 0 * 1024 + 1 * (y 0).val
  rw [e0]
  omega

/-- The positives' weighted scores. -/
theorem arr7 (c : Dev nD) (r : Fin 4096) :
    ((dats m 0 c).arrAt 7 cfg0.N : S4096x1.Idx → EReal) (ix2 r (0 : Fin 1)) = Spec.posW (Tk m c) (Vk m c) (Lk m c) r := by
  have hN : cfg0.N = 32 := N_0
  have hr : r.val < 4096 := r.isLt
  have hlt : 8 * (r.val / 1024) + 7 < cfg0.N := by omega
  obtain ⟨-, -, -, -, -, -, -, -, -, -, -, -, e0, e1⟩ := idx_facts ⟨8 * (r.val / 1024) + 7, hlt⟩
  have hf : (cfg0.win 7).flush ⟨8 * (r.val / 1024) + 7, hlt⟩ = true :=
    (flush0_7 ⟨8 * (r.val / 1024) + 7, hlt⟩).mpr (by show (8 * (r.val / 1024) + 7) % 8 = 7; omega)
  refine ((dats m 0 c).arrAt_apply_of_mem 7 (G7 m c) (flushed7_eq m c) cfg0.N ⟨8 * (r.val / 1024) + 7, hlt⟩
    (ix2 r (0 : Fin 1)) hlt hf ?_).trans rfl
  show ix2 r (0 : Fin 1) ∈ ((View.whole main_v28_3).slice (win0_7.rect ⟨8 * (r.val / 1024) + 7, hlt⟩)).set
  rw [View.set_slice_whole, Rect.mem_set_unit]
  intro a
  have q0 : win0_7.index ⟨8 * (r.val / 1024) + 7, hlt⟩ 0 = r.val / 1024 := by rw [e0]; show (8 * (r.val / 1024) + 7) / 8 = _; omega
  match a with
  | ⟨0, _⟩ =>
    show win0_7.index ⟨8 * (r.val / 1024) + 7, hlt⟩ 0 * 1024 ≤ r.val ∧ r.val < win0_7.index ⟨8 * (r.val / 1024) + 7, hlt⟩ 0 * 1024 + 1024
    rw [q0]; omega
  | ⟨1, _⟩ =>
    show win0_7.index ⟨8 * (r.val / 1024) + 7, hlt⟩ 1 * 1 ≤ 0 ∧ 0 < win0_7.index ⟨8 * (r.val / 1024) + 7, hlt⟩ 1 * 1 + 1
    rw [e1]; omega

end Cert.KernelIdeal.KA

end
-- ==== Proof.KFirstCol.lean ====
/-
  The scores' first column after the region.  At the first column tile (j = 0) the body keeps column 0 of the
  1024 x 512 scores tile, which is column 0 of the 4096 x 4096 array for the tile's 1024 rows, in a buffer it
  carries unchanged through the other seven tiles and copies to the output block (i, 0) at the last (j = 7), the one
  point that writes that block back.  So entry (r, 0) of the output is score r 0.
-/
import proofs.«145600_j21517786153378_1_alg».proof.Proof.KPieces
import proofs.«145600_j21517786153378_1_alg».proof.Proof.KViews
import proofs.«145600_j21517786153378_1_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KA

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ### The scores tile at an entry: the sum over the 512 features -/

/-- The left operand's row coordinate is the output's row. -/
private theorem lhs3_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the summation index. -/
private theorem lhs3_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate is the summation index. -/
private theorem rhs3_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate is the output's column. -/
private theorem rhs3_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry (p, q) of the scores tile: row p of the text block against row q of the image block. -/
private theorem pay3_apply (X : FVec Ideal S1024x512 .bf16) (Y : FVec Ideal S512x512 .bf16) (p : Fin 1024) (q : Fin 512) :
    k0_pay3 (F := Ideal) X Y (ix2 p q) = ∑ k : Fin 512, X (ix2 p k) * Y (ix2 q k) := by
  unfold k0_pay3
  refine (Ideal.matmul_constant_zero_apply dot_S1024x512_S512x512_S1024x512_1_0_0_1_n_n none _ _ (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  refine congrArg₂ (· * ·) ?_ ?_
  · refine (congrFun (shapeCast_self X _) _).trans (congrArg X (funext fun a => Fin.ext ?_))
    match a with
    | ⟨0, _⟩ => exact lhs3_0 _ _
    | ⟨1, _⟩ => exact (lhs3_1 _ _).trans hk
  · refine (transpose_apply [1, 0] _ _ _ (ix2 q k) (fun b => ?_)).trans (congrFun (shapeCast_self Y _) _)
    match b with
    | ⟨0, _⟩ => exact ((rhs3_0 _ _).trans hk).symm
    | ⟨1, _⟩ => show q.val = _; exact (rhs3_1 (ix2 p q) _).symm

/-- Entry (p, 0) of the first-column buffer the body keeps: column 0 of the scores tile. -/
private theorem pay11_apply (X : FVec Ideal S1024x512 .bf16) (Y : FVec Ideal S512x512 .bf16) (p : Fin 1024) :
    k0_pay11 (F := Ideal) X Y (ix2 p (0 : Fin 1)) = ∑ k : Fin 512, X (ix2 p k) * Y (ix2 (0 : Fin 512) k) := by
  unfold k0_pay11
  refine (congrFun (shapeCast_self _ _) _).trans ?_
  refine (extractStridedSlice_apply _ _ _ (ix2 p (0 : Fin 1)) (ix2 p (0 : Fin 512)) (fun a => ?_)).trans (pay3_apply X Y p 0)
  match a with
  | ⟨0, _⟩ => show p.val = 0 + p.val; omega
  | ⟨1, _⟩ => rfl

/-! ### The blocks the body loads, as rows of the arrays -/

/-- The block indices of the text window, the image window and the first-column output at a point, decided over the
    32 points: the row tile, the column tile, the row tile. -/
private theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_8.index t (0 : Fin 2) = t.val / 8 ∧ win0_8.index t (1 : Fin 2) = 0 :=
  (by decide +kernel : ∀ t : Fin grid0.N, _)

/-- The text block at a point: rows 1024 i … 1024 i + 1023 of the text rows, i the row tile. -/
private theorem tblk_apply (c : Dev nD) (t : Fin cfg0.N) (p : Fin 1024) (k : Fin 512) (r : Fin 4096)
    (hr : r.val = 1024 * (t.val / 8) + p.val) :
    (iblk m c 0 t : Vec Ideal S1024x512 .bf16) (ix2 p k) = Tk m c r k := by
  obtain ⟨e0, e1, -⟩ := idx_facts t
  unfold iblk Tk
  rw [View.read_apply]
  show (V m c main_v17 : S4096x512.Idx → EReal) _ = (V m c main_v17 : S4096x512.Idx → EReal) _
  refine congrArg (V m c main_v17 : S4096x512.Idx → EReal) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The image block at a point: rows 512 j … 512 j + 511 of the image rows, j the column tile. -/
private theorem vblk_apply (c : Dev nD) (t : Fin cfg0.N) (q : Fin 512) (k : Fin 512) (r : Fin 4096)
    (hr : r.val = 512 * (t.val % 8) + q.val) :
    (iblk m c 1 t : Vec Ideal S512x512 .bf16) (ix2 q k) = Vk m c r k := by
  obtain ⟨-, -, e0, e1, -⟩ := idx_facts t
  unfold iblk Vk
  rw [View.read_apply]
  show (V m c main_v16 : S4096x512.Idx → EReal) _ = (V m c main_v16 : S4096x512.Idx → EReal) _
  refine congrArg (V m c main_v16 : S4096x512.Idx → EReal) (funext fun a => Fin.ext ?_)
  match a with
  | ⟨0, _⟩ => show win0_1.index t (0 : Fin 2) * 512 + 1 * q.val = r.val; rw [e0, hr]; omega
  | ⟨1, _⟩ => show win0_1.index t (1 : Fin 2) * 512 + 1 * k.val = k.val; rw [e1]; omega

/-! ### The carried first-column buffer -/

/-- After point n the carried buffer holds column 0 of the scores tile of the FIRST column tile of n's row tile: the
    row tile's first point sets it, the other seven keep what the point before left. -/
private theorem sc3_eq (c : Dev nD) : ∀ (n : ℕ) (h : n < cfg0.N) (b : ℕ) (hb : b < cfg0.N), b = 8 * (n / 8) →
    (outsAt0 m c n h).2.2.2.2.2.2.2.2 = k0_pay11 (F := Ideal) (iblk m c 0 ⟨b, hb⟩) (iblk m c 1 ⟨b, hb⟩)
  | 0, h, b, hb, e => by
    obtain rfl : b = 0 := by omega
    rw [outsAt0_A m c ⟨0, h⟩ (Nat.zero_mod _) (by show ¬0 % 8 = 7; decide)]
    dsimp only
    rw [KP.sout0_A_3_eq]
  | n + 1, h, b, hb, e => by
    have hN : cfg0.N = 32 := N_0
    by_cases h0 : (n + 1) % 8 = 0
    · have h1 : ¬(n + 1) % 8 = 7 := by omega
      obtain rfl : b = n + 1 := by omega
      rw [outsAt0_A m c ⟨n + 1, h⟩ h0 h1]
      dsimp only
      rw [KP.sout0_A_3_eq]
    · by_cases h1 : (n + 1) % 8 = 7
      · rw [outsAt0_C m c ⟨n + 1, h⟩ h0 h1]
        dsimp only
        rw [KP.sout0_C_3_eq]
        exact sc3_eq c n _ b hb (by omega)
      · rw [outsAt0_B m c ⟨n + 1, h⟩ h0 h1]
        dsimp only
        rw [KP.sout0_B_3_eq]
        exact sc3_eq c n _ b hb (by omega)

/-! ### The first-column output -/

/-- The scores' first column as a 4096 × 1 array. -/
private abbrev G8 (c : Dev nD) : S4096x1.Idx → EReal :=
  fun i => Spec.score (Tk m c) (Vk m c) ⟨(i 0).val, (i 0).isLt⟩ 0

/-- What a last column tile writes back is its block of the first column: the carried buffer, whose entry (p, 0) is
    row 1024 i + p of the text rows against row 0 of the image rows. -/
private theorem flushed8_eq (c : Dev nD) (t : Fin cfg0.N) (hf : (cfg0.win 8).flush t = true) :
    (dats m 0 c).flushed 8 t = ((cfg0.win 8).blk t).view.read (Elt Ideal) (G8 m c) := by
  have hN : cfg0.N = 32 := N_0
  have ht := t.isLt
  have h7 : t.val % 8 = 7 := (flush0_8 t).mp hf
  have h0 : ¬t.val % 8 = 0 := by omega
  have hb : 8 * (t.val / 8) < cfg0.N := by omega
  obtain ⟨-, -, -, -, e0, e1⟩ := idx_facts t
  have hval : (outsAt0 m c t.val t.isLt).2.2.2.2.1
      = k0_pay11 (F := Ideal) (iblk m c 0 ⟨8 * (t.val / 8), hb⟩) (iblk m c 1 ⟨8 * (t.val / 8), hb⟩) := by
    rw [outsAt0_C m c t h0 h7]
    dsimp only
    rw [KP.out0_C_8_eq]
    exact sc3_eq m c (t.val - 1) _ _ hb (by omega)
  show (cfg0.win 8).cut (grid0.coords t) ((dats m 0 c).after 8 t) = _
  rw [after0_8, hval]
  refine funext fun (j : S1024x1.Idx) => ?_
  obtain ⟨p, z, rfl⟩ : ∃ (p : Fin 1024) (z : Fin 1), j = ix2 p z := ⟨j 0, j 1, eq_ix2 j⟩
  obtain rfl : z = 0 := Subsingleton.elim _ _
  have hr : 1024 * (t.val / 8) + p.val < 4096 := by have := p.isLt; omega
  have hx : (cfg0.win 8).xinj (grid0.coords t) (ix2 p (0 : Fin 1)) = ix2 p (0 : Fin 1) :=
    funext fun a => Fin.ext (by match a with | ⟨0, _⟩ => rfl | ⟨1, _⟩ => rfl)
  rw [View.read_apply]
  show k0_pay11 (F := Ideal) (iblk m c 0 ⟨8 * (t.val / 8), hb⟩) (iblk m c 1 ⟨8 * (t.val / 8), hb⟩)
      ((cfg0.win 8).xinj (grid0.coords t) (ix2 p (0 : Fin 1)))
    = G8 m c (((cfg0.win 8).blk t).view.emb (ix2 p (0 : Fin 1)))
  rw [hx]
  refine (pay11_apply _ _ p).trans ?_
  show _ = ∑ k : Fin 512, Tk m c ⟨((((cfg0.win 8).blk t).view.emb (ix2 p (0 : Fin 1))) 0).val, _⟩ k * Vk m c 0 k
  refine Finset.sum_congr rfl fun k _ => ?_
  refine congrArg₂ (· * ·) (tblk_apply m c ⟨8 * (t.val / 8), hb⟩ p k _ ?_) (vblk_apply m c ⟨8 * (t.val / 8), hb⟩ 0 k 0 ?_)
  · show win0_8.index t (0 : Fin 2) * 1024 + 1 * p.val = 1024 * (8 * (t.val / 8) / 8) + p.val
    rw [e0]; omega
  · show 0 = 512 * (8 * (t.val / 8) % 8) + 0
    omega

/-- An index of the 4096 × 1 array lies in a point's block iff each coordinate lies in the block's range. -/
private theorem mem_blk8 (t : Fin cfg0.N) (i : S4096x1.Idx) :
    i ∈ ((cfg0.win 8).blk t).view.set ↔ ∀ a : Fin 2, win0_8.index t a * S1024x1.size a ≤ (i a).val
      ∧ (i a).val < win0_8.index t a * S1024x1.size a + S1024x1.size a := by
  show i ∈ ((View.whole main_v28_4).slice (win0_8.rect t)).set ↔ _
  rw [View.set_slice_whole, Rect.mem_set_unit]
  exact Iff.rfl

/-- The scores' first column. -/
theorem arr8 (c : Dev nD) (r : Fin 4096) :
    ((dats m 0 c).arrAt 8 cfg0.N : S4096x1.Idx → EReal) (ix2 r (0 : Fin 1)) = Spec.score (Tk m c) (Vk m c) r 0 := by
  -- row r lies in row tile r / 1024, whose block is written back at that tile's last point
  have hN : cfg0.N = 32 := N_0
  have hr := r.isLt
  have ht : 8 * (r.val / 1024) + 7 < cfg0.N := by omega
  obtain ⟨-, -, -, -, e0, e1⟩ := idx_facts ⟨8 * (r.val / 1024) + 7, ht⟩
  have e0' : win0_8.index ⟨8 * (r.val / 1024) + 7, ht⟩ (0 : Fin 2) = (8 * (r.val / 1024) + 7) / 8 := e0
  have hf : (cfg0.win 8).flush ⟨8 * (r.val / 1024) + 7, ht⟩ = true :=
    (flush0_8 _).mpr (by show (8 * (r.val / 1024) + 7) % 8 = 7; omega)
  refine ((dats m 0 c).arrAt_apply_of_mem 8 (G8 m c) (flushed8_eq m c) cfg0.N ⟨8 * (r.val / 1024) + 7, ht⟩
    (ix2 r (0 : Fin 1)) ht hf ?_).trans rfl
  rw [mem_blk8]
  intro a
  match a with
  | ⟨0, _⟩ =>
    show win0_8.index ⟨8 * (r.val / 1024) + 7, ht⟩ (0 : Fin 2) * 1024 ≤ r.val
      ∧ r.val < win0_8.index ⟨8 * (r.val / 1024) + 7, ht⟩ (0 : Fin 2) * 1024 + 1024
    rw [e0']; omega
  | ⟨1, _⟩ =>
    show win0_8.index ⟨8 * (r.val / 1024) + 7, ht⟩ (1 : Fin 2) * 1 ≤ 0
      ∧ 0 < win0_8.index ⟨8 * (r.val / 1024) + 7, ht⟩ (1 : Fin 2) * 1 + 1
    rw [e1]; omega

end Cert.KernelIdeal.KA

end
-- ==== Proof.RefNorm.lean ====
/-
  The reference's arrays in the specification's words, and the facts about them the comparison needs.

  `Tr`, `Vr` are the reference's normalised text and image rows, `Lr` its label vector, `Mr` the mask, `Nr` the number
  of negatives.  The reference's scores are `Spec.score Tr Vr` (its `dot_general` against the transposed image rows).
  Under finite inputs every normalised entry is a real (x / max (√(∑ x²)) ε with ε > 0), so every score is a real; a
  label is 0 or 1, and label 0 is 1 (an identity equals itself).
-/
import proofs.«145600_j21517786153378_1_alg».proof.Proof.Gen.ReferenceIdeal.Read
import proofs.«145600_j21517786153378_1_alg».proof.Proof.Spec
import proofs.«145600_j21517786153378_1_alg».proof.Proof.Algebra
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RN

open Cert.ReferenceIdeal Cert.ReferenceIdeal.Gen
open Idealize.ShloMosaic Idealize.ShloMosaic.TcCoe Idealize.ShloMosaic.ValueIdx

variable (x0 x1 : (⟨S4096x512, .f32⟩ : BufTy).Contents (Elt Ideal)) (x2 : (⟨S4096, .i32⟩ : BufTy).Contents (Elt Ideal))

/-- The reference's normalised text rows. -/
def Tr (r : Fin 4096) (k : Fin 512) : EReal := Read.val_main_v15 (F := Ideal) x1 (ix2 r k)
/-- The reference's normalised image rows. -/
def Vr (r : Fin 4096) (k : Fin 512) : EReal := Read.val_main_v7 (F := Ideal) x0 (ix2 r k)
/-- The reference's label vector. -/
def Lr (j : Fin 4096) : EReal := Read.val_main_v22 (F := Ideal) x2 (ix1 j)
/-- The reference's mask vector. -/
def Mr (j : Fin 4096) : EReal := Read.val_main_v24 (F := Ideal) x2 (ix1 j)
/-- The reference's number of negatives. -/
def Nr : EReal := Read.val_main_v25 (F := Ideal) x2 ix0

/-- Row `r`'s norm is broadcast along the row: the index the text row's sum of squares is read at, from entry
    `(r, k)`, is `(r, j)` for the summation variable `j`. -/
private theorem idx_rowT (r : Fin 4096) (k j : Fin 512) :
    Read.idx_main_v9 (Read.idx_main_v10 (Read.idx_main_v14 (ix2 r k))) j = ix2 r j := by
  funext a; match a with | ⟨0, _⟩ => rfl | ⟨1, _⟩ => rfl

/-- The same for the image rows. -/
private theorem idx_rowV (r : Fin 4096) (k j : Fin 512) :
    Read.idx_main_v1 (Read.idx_main_v2 (Read.idx_main_v6 (ix2 r k))) j = ix2 r j := by
  funext a; match a with | ⟨0, _⟩ => rfl | ⟨1, _⟩ => rfl

/-- A normalised text entry in closed form: x / max (√(0 + ∑ⱼ xⱼ²)) ε along row `r`. -/
private theorem Tr_eq (r : Fin 4096) (k : Fin 512) :
    Tr x1 r k = Ideal.div (x1 (ix2 r k))
      (max (Ideal.sqrt (Cert.Spec.zeroW + ∑ j : Fin 512, x1 (ix2 r j) * x1 (ix2 r j))) (Ideal.ofBits .f32 0x2B8CBCCC#32)) := by
  unfold Tr
  rw [Read.val_main_v15_apply, Read.val_main_v14_apply, Read.val_main_v13_apply, Read.val_main_v11_apply,
    Read.val_main_v10_apply, Read.val_main_v9_apply, Read.val_main_v12_apply, Read.val_main_cst_2_apply,
    Read.val_main_cst_1_apply]
  simp only [Read.val_main_v8_apply, idx_rowT]
  rfl

/-- A normalised image entry in closed form. -/
private theorem Vr_eq (r : Fin 4096) (k : Fin 512) :
    Vr x0 r k = Ideal.div (x0 (ix2 r k))
      (max (Ideal.sqrt (Cert.Spec.zeroW + ∑ j : Fin 512, x0 (ix2 r j) * x0 (ix2 r j))) (Ideal.ofBits .f32 0x2B8CBCCC#32)) := by
  unfold Vr
  rw [Read.val_main_v7_apply, Read.val_main_v6_apply, Read.val_main_v5_apply, Read.val_main_v3_apply,
    Read.val_main_v2_apply, Read.val_main_v1_apply, Read.val_main_v4_apply, Read.val_main_cst_0_apply,
    Read.val_main_cst_apply]
  simp only [Read.val_main_v0_apply, idx_rowV]
  rfl

theorem T_real (hx1 : ∀ i, ∃ x : ℝ, x1 i = (x : EReal)) (r : Fin 4096) (k : Fin 512) : ∃ y : ℝ, Tr x1 r k = (y : EReal) := by
  obtain ⟨e, he, hee⟩ := Cert.Algebra.eps_pos
  rw [Tr_eq, hee]
  exact Cert.Algebra.normalise_real (fun j => x1 (ix2 r j)) (fun j => hx1 _) k e he

theorem V_real (hx0 : ∀ i, ∃ x : ℝ, x0 i = (x : EReal)) (r : Fin 4096) (k : Fin 512) : ∃ y : ℝ, Vr x0 r k = (y : EReal) := by
  obtain ⟨e, he, hee⟩ := Cert.Algebra.eps_pos
  rw [Vr_eq, hee]
  exact Cert.Algebra.normalise_real (fun j => x0 (ix2 r j)) (fun j => hx0 _) k e he

/-- The reference's scores are the specification's. -/
theorem score_eq (r c : Fin 4096) :
    Read.val_main_v17 (F := Ideal) x0 x1 (ix2 r c) = Spec.score (Tr x1) (Vr x0) r c := by
  rw [Read.val_main_v17_apply]
  unfold Spec.score Tr Vr
  refine Finset.sum_congr rfl fun k _ => ?_
  rw [Read.val_main_v16_apply]
  -- the left operand is read at (r, k); the transposed right operand at (k, c), that is the image rows at (c, k)
  have hl : Read.lidx_main_v17 (ix2 r c) k = ix2 r k := by
    funext a; match a with | ⟨0, _⟩ => rfl | ⟨1, _⟩ => rfl
  have hr : Read.idx_main_v16 (Read.ridx_main_v17 (ix2 r c) k) = ix2 c k := by
    funext a; match a with | ⟨0, _⟩ => rfl | ⟨1, _⟩ => rfl
  rw [hl, hr]

theorem score_real (hx0 : ∀ i, ∃ x : ℝ, x0 i = (x : EReal)) (hx1 : ∀ i, ∃ x : ℝ, x1 i = (x : EReal)) (r c : Fin 4096) :
    ∃ s : ℝ, Spec.score (Tr x1) (Vr x0) r c = (s : EReal) := by
  unfold Spec.score
  refine Cert.Algebra.sum_real _ fun k => ?_
  obtain ⟨a, ha⟩ := T_real x1 hx1 r k
  obtain ⟨b, hb⟩ := V_real x0 hx0 c k
  exact ⟨a * b, by rw [ha, hb, EReal.coe_mul]⟩

/-- A label is the unsigned reading of one bit. -/
private theorem Lr_eq (j : Fin 4096) :
    Lr x2 j = (((Read.val_main_v21 (F := Ideal) x2 (ix1 j)).toNat : ℝ) : EReal) := rfl

/-- A label is a non-negative real (0 or 1). -/
theorem L_real (j : Fin 4096) : ∃ y : ℝ, 0 ≤ y ∧ Lr x2 j = (y : EReal) :=
  ⟨_, Nat.cast_nonneg _, Lr_eq x2 j⟩

/-- The one-element slice [0:1] of the identities reads the input at index 0, at its only index. -/
private theorem v18_eq (q : S1.Idx) : Read.val_main_v18 (F := Ideal) x2 q = x2 (ix1 0) := by
  rw [Read.val_main_v18_apply]
  congr 1
  funext a
  match a with
  | ⟨0, _⟩ => exact Fin.ext (by have h1 : (q 0).val < 1 := (q 0).isLt; show (q 0).val = 0; omega)

/-- The identity every sample is compared with is sample 0's: the slice reshaped to a scalar and broadcast reads the
    input at index 0 everywhere. -/
private theorem v20_eq (i : S4096.Idx) : Read.val_main_v20 (F := Ideal) x2 i = x2 (ix1 0) := by
  rw [Read.val_main_v20_apply]
  unfold Read.val_main_v19 shapeCast
  exact v18_eq x2 _

/-- Sample 0 agrees with itself. -/
theorem L_zero : Lr x2 0 = ((1 : ℝ) : EReal) := by
  rw [Lr_eq, Read.val_main_v21_apply, v20_eq]
  simp [IntOp.cmpi]

end Cert.ReferenceIdeal.RN

end
-- ==== Proof.RefValue.lean ====
/-
  The reference's per-sample loss is the specification's, row by row, under finite inputs.

  The reference forms alpha = e * L / ∑ (e * L) and sums alpha * score, where the specification divides the sum
  ∑ e * L * score by ∑ e * L: equal because every weight e * L is a non-negative real, the weight of column 0 is
  positive (label 0 is 1 and an exponential is positive) and every score is a real.  Each host sum is its initial
  zero plus the sum over the reduced axis; the remaining operations are the specification's, one for one.
-/
import proofs.«145600_j21517786153378_1_alg».proof.Proof.RefNorm

noncomputable section

namespace Cert.ReferenceIdeal.RV

open Cert.ReferenceIdeal Cert.ReferenceIdeal.Gen Cert.ReferenceIdeal.RN
open Idealize.ShloMosaic Idealize.ShloMosaic.TcCoe Idealize.ShloMosaic.ValueIdx

variable (x0 x1 : (⟨S4096x512, .f32⟩ : BufTy).Contents (Elt Ideal)) (x2 : (⟨S4096, .i32⟩ : BufTy).Contents (Elt Ideal))
  (x3 : (⟨S4096, .f32⟩ : BufTy).Contents (Elt Ideal))

/-- The reference's exponential weight of the pair (r, c) is the specification's. -/
private theorem e_eq (r c : Fin 4096) :
    Read.val_main_v28 (F := Ideal) x0 x1 (ix2 r c) = Spec.e (Tr x1) (Vr x0) r c := by
  rw [Read.val_main_v28_apply, Read.val_main_v27_apply, Read.val_main_v26_apply, Read.val_main_cst_5_apply,
    RN.score_eq]
  rfl

/-- The label row broadcast along the rows, read at (r, c), is label c (first copy). -/
private theorem lab30 (r c : Fin 4096) : Read.val_main_v30 (F := Ideal) x2 (ix2 r c) = Lr x2 c := by
  rw [Read.val_main_v30_apply, Read.val_main_v29_apply]
  exact congrArg (Read.val_main_v22 (F := Ideal) x2) (funext fun a => Fin.ext (by match a with | ⟨0, _⟩ => rfl))

/-- The label row broadcast along the rows, read at (r, c), is label c (second copy). -/
private theorem lab33 (r c : Fin 4096) : Read.val_main_v33 (F := Ideal) x2 (ix2 r c) = Lr x2 c := by
  rw [Read.val_main_v33_apply, Read.val_main_v32_apply]
  exact congrArg (Read.val_main_v22 (F := Ideal) x2) (funext fun a => Fin.ext (by match a with | ⟨0, _⟩ => rfl))

/-- The mask row broadcast along the rows, read at (r, c), is mask c. -/
private theorem mask40 (r c : Fin 4096) : Read.val_main_v40 (F := Ideal) x2 (ix2 r c) = Mr x2 c := by
  rw [Read.val_main_v40_apply, Read.val_main_v39_apply]
  exact congrArg (Read.val_main_v24 (F := Ideal) x2) (funext fun a => Fin.ext (by match a with | ⟨0, _⟩ => rfl))

/-- The reference's sum of positive weights of row r. -/
private theorem posSum_eq (r : Fin 4096) :
    Read.val_main_v35 (F := Ideal) x0 x1 x2 (ix1 r) = Spec.posSum (Tr x1) (Vr x0) (Lr x2) r := by
  have hidx : ∀ k : Fin 4096, Read.idx_main_v35 (ix1 r) k = ix2 r k := fun k =>
    funext fun a => Fin.ext (by match a with | ⟨0, _⟩ => rfl | ⟨1, _⟩ => rfl)
  rw [Read.val_main_v35_apply, Read.val_main_cst_6_apply]
  simp only [hidx, Read.val_main_v34_apply, e_eq, lab33, Ideal.mulf_def, Ideal.ofBits_def, Ideal.ofBits_zero_f32,
    zero_add]
  rfl

/-- The reference's sum of negative weights of row r. -/
private theorem negSum_eq (r : Fin 4096) :
    Read.val_main_v42 (F := Ideal) x0 x1 x2 (ix1 r) = Spec.negSum (Tr x1) (Vr x0) (Mr x2) r := by
  have hidx : ∀ k : Fin 4096, Read.idx_main_v42 (ix1 r) k = ix2 r k := fun k =>
    funext fun a => Fin.ext (by match a with | ⟨0, _⟩ => rfl | ⟨1, _⟩ => rfl)
  rw [Read.val_main_v42_apply, Read.val_main_cst_7_apply]
  simp only [hidx, Read.val_main_v41_apply, e_eq, mask40, Ideal.mulf_def, Ideal.ofBits_def, Ideal.ofBits_zero_f32,
    zero_add]
  rfl

/-- The reference's weighted positive score of row r: it normalises each weight by the row's positive sum before
    summing; the weights e * L are non-negative reals, the one of column 0 positive, the scores real, so this is the
    sum of e * L * score divided by the positive sum. -/
private theorem posW_eq (hx0 : ∀ i, ∃ x : ℝ, x0 i = (x : EReal)) (hx1 : ∀ i, ∃ x : ℝ, x1 i = (x : EReal)) (r : Fin 4096) :
    Read.val_main_v46 (F := Ideal) x0 x1 x2 (ix1 r)
      = Ideal.div (Spec.posW (Tr x1) (Vr x0) (Lr x2) r) (Spec.posSum (Tr x1) (Vr x0) (Lr x2) r) := by
  have hidx : ∀ k : Fin 4096, Read.idx_main_v46 (ix1 r) k = ix2 r k := fun k =>
    funext fun a => Fin.ext (by match a with | ⟨0, _⟩ => rfl | ⟨1, _⟩ => rfl)
  have hden : ∀ k : Fin 4096, Read.idx_main_v36 (Read.idx_main_v37 (ix2 r k)) = ix1 r := fun k =>
    funext fun a => Fin.ext (by match a with | ⟨0, _⟩ => rfl)
  have hA : ∀ c, ∃ x : ℝ, 0 ≤ x ∧ Spec.e (Tr x1) (Vr x0) r c * Lr x2 c = (x : EReal) := by
    intro c
    obtain ⟨s, hs⟩ := RN.score_real x0 x1 hx0 hx1 r c
    obtain ⟨w, hw0, hw⟩ := Cert.Algebra.exp_div_tau_pos s
    obtain ⟨y, hy0, hy⟩ := RN.L_real x2 c
    refine ⟨w * y, mul_nonneg hw0.le hy0, ?_⟩
    rw [Spec.e, hs, hw, hy, EReal.coe_mul]
  have hS : ∀ c, ∃ x : ℝ, Spec.score (Tr x1) (Vr x0) r c = (x : EReal) := fun c => RN.score_real x0 x1 hx0 hx1 r c
  have hpos : ∃ c, ∃ x : ℝ, 0 < x ∧ Spec.e (Tr x1) (Vr x0) r c * Lr x2 c = (x : EReal) := by
    obtain ⟨s, hs⟩ := RN.score_real x0 x1 hx0 hx1 r 0
    obtain ⟨w, hw0, hw⟩ := Cert.Algebra.exp_div_tau_pos s
    refine ⟨0, w, hw0, ?_⟩
    rw [Spec.e, hs, hw, RN.L_zero, ← EReal.coe_mul, mul_one]
  rw [Read.val_main_v46_apply, Read.val_main_cst_9_apply]
  simp only [hidx, Read.val_main_v45_apply, Read.val_main_v38_apply, Read.val_main_v31_apply, Read.val_main_v37_apply,
    Read.val_main_v36_apply, hden, posSum_eq, e_eq, lab30, RN.score_eq, Ideal.mulf_def, Ideal.hostDivf_def,
    Ideal.ofBits_def, Ideal.ofBits_zero_f32, zero_add]
  exact Cert.Algebra.sum_div_mul (fun c => Spec.e (Tr x1) (Vr x0) r c * Lr x2 c)
    (fun c => Spec.score (Tr x1) (Vr x0) r c) hA hS hpos

/-- The reference's per-sample loss at row `r`. -/
theorem psl_eq (hx0 : ∀ i, ∃ x : ℝ, x0 i = (x : EReal)) (hx1 : ∀ i, ∃ x : ℝ, x1 i = (x : EReal)) (r : Fin 4096) :
    Read.val_main_v72 (F := Ideal) x0 x1 x2 x3 (ix1 r)
      = Spec.psl (Tr x1) (Vr x0) (Lr x2) (Mr x2) (fun r' => x3 (ix1 r')) (Nr x2) r := by
  -- column 0 of the score matrix, read through the slice and the reshape
  have h56 : Read.idx_main_v55 (Read.idx_main_v56 (ix1 r)) = ix2 r (0 : Fin 4096) :=
    funext fun a => Fin.ext (by match a with | ⟨0, _⟩ => exact Nat.div_one _ | ⟨1, _⟩ => rfl)
  have hs0 : Read.val_main_v56 (F := Ideal) x0 x1 (ix1 r) = Spec.score (Tr x1) (Vr x0) r 0 := by
    rw [Read.val_main_v56_apply, Read.val_main_v55_apply, h56, RN.score_eq]
  simp only [Read.val_main_v72_apply, Read.val_main_v54_apply, Read.val_main_v52_apply, Read.val_main_v51_apply,
    Read.val_main_v47_apply, Read.val_main_v50_apply, Read.val_main_v49_apply, Read.val_main_cst_10_apply,
    Read.val_main_v48_apply, Read.val_main_v44_apply, Read.val_main_v43_apply, Read.val_main_cst_8_apply,
    Read.val_main_v53_apply, Read.val_main_cst_11_apply, Read.val_main_v71_apply, Read.val_main_v69_apply,
    Read.val_main_v68_apply, Read.val_main_v64_apply, Read.val_main_v67_apply, Read.val_main_v66_apply,
    Read.val_main_cst_14_apply, Read.val_main_v65_apply, Read.val_main_v63_apply, Read.val_main_v62_apply,
    Read.val_main_cst_13_apply, Read.val_main_v61_apply, Read.val_main_v59_apply, Read.val_main_v58_apply,
    Read.val_main_v57_apply, Read.val_main_cst_12_apply, Read.val_main_v60_apply, Read.val_main_v70_apply,
    Read.val_main_cst_15_apply, posW_eq x0 x1 x2 hx0 hx1, negSum_eq, hs0,
    Ideal.addf_def, Ideal.mulf_def, Ideal.maximumf_def, Ideal.minimumf_def, Ideal.hostNegf_def, Ideal.negf_def,
    Ideal.hostDivf_def, Ideal.hostUnary_exp_def, Ideal.hostUnary_log_def, Ideal.ofBits_def]
  rfl

end Cert.ReferenceIdeal.RV

end
-- ==== Proof.Finite.lean ====
/-
  From the precondition to finiteness: where the printed predicate `finite_inputs` is all ones, every entry of the
  two feature arrays is a real number (neither infinity).  The predicate is the conjunction, over the four float
  inputs, of "every |x| is below +∞"; only the first two conjuncts are used.
-/
import proofs.«145600_j21517786153378_1_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic

/-- The scalar shape has exactly one index. -/
private instance : Subsingleton Cert.Pre_finite_inputs.S_.Idx := ⟨fun a b => funext fun d => d.elim0⟩

/-- The f32 pattern 0x7F800000 denotes +∞. -/
private theorem inf_word : Ideal.ofBits .f32 0x7F800000#32 = (⊤ : EReal) := by simp [Ideal.ofBits, Ideal.ieee]

/-- An extended real whose absolute value `max a (-a)` is strictly below +∞ is a real: at `⊥` the absolute value is
    `max ⊥ ⊤ = ⊤` and at `⊤` it is `⊤`, and `⊤` is not strictly below itself. -/
private theorem real_of_abs_lt (a : EReal)
    (h : Ideal.cmp .olt (max a (-a)) (Ideal.ofBits .f32 0x7F800000#32) = 1#1) : ∃ x : ℝ, a = (x : EReal) := by
  rw [inf_word] at h
  induction a using EReal.rec with
  | bot => simp [Ideal.cmp] at h
  | top => simp [Ideal.cmp] at h
  | coe r => exact ⟨r, rfl⟩

/-- The test "|x| < +∞" of an array of any shape, read at one index: the compared constant is the scalar +∞ broadcast
    to the array's shape, so it reads +∞ everywhere, and the comparison is the extended reals' strict order. -/
private theorem real_of_cmp {T : Shape} (hb : Cert.Pre_finite_inputs.S_.BroadcastsInDim T ![]) (x : FVec Ideal T .f32)
    (i : T.Idx)
    (e : cmpf .olt (Host.absf x)
        (broadcastInDim T ![] hb (constant Cert.Pre_finite_inputs.S_ .f32 0x7F800000#32)) i = 1#1) :
    ∃ r : ℝ, x i = (r : EReal) := by
  rw [ValueIdx.cmpf_apply, ValueIdx.broadcastInDim_scalar_apply, ValueIdx.constant_apply] at e
  exact real_of_abs_lt (x i) e

/-- Under the precondition every entry of the visual and of the textual features is a real. -/
theorem real_of_pre [Cert.Pre_finite_inputs.Facts]
    (x0 x1 : FVec Ideal Cert.Pre_finite_inputs.S4096x512 .f32) (x2 : IVec Cert.Pre_finite_inputs.S4096 32)
    (x3 x4 : FVec Ideal Cert.Pre_finite_inputs.S4096 .f32) (x5 : IVec Cert.Pre_finite_inputs.S4096 32)
    (h : Cert.Pre_finite_inputs.fn (F := Ideal) x0 x1 x2 x3 x4 x5 = fun _ => 1#1) :
    (∀ i, ∃ x : ℝ, x0 i = (x : EReal)) ∧ (∀ i, ∃ x : ℝ, x1 i = (x : EReal)) := by
  have h0 := congrFun h ValueIdx.ix0
  dsimp only [Cert.Pre_finite_inputs.fn, Cert.Pre_finite_inputs.fn_part1] at h0
  -- the result is ((A0 ∧ A1) ∧ A3) ∧ A4, each A the "and" of the test over a whole array; a conjunction of one-bit
  -- words is 1 exactly when both are, and an "and" over a whole array that is 1 had a 1 at every index
  obtain ⟨h012, -⟩ := IntOp.andi_eq_one.1 h0
  obtain ⟨h01, -⟩ := IntOp.andi_eq_one.1 h012
  obtain ⟨hA0, hA1⟩ := IntOp.andi_eq_one.1 h01
  exact ⟨fun i => real_of_cmp _ x0 i (Host.reduce_andi_all _ _ _ _ _ hA0 i),
         fun i => real_of_cmp _ x1 i (Host.reduce_andi_all _ _ _ _ _ hA1 i)⟩

end Cert.Finite

end
-- ==== Proof.Bridge.lean ====
/-
  The two idealized programs end with equal results.

  Both normalise the features by the same host operations, so the arrays the kernel's region finds are the
  reference's (`normed` is the reference's normalisation stage, `labels` / `mask` / `nneg` its label stages).  The
  region's scores are the reference's `dot_general`; the kernel's per-sample loss is `Spec.pslOf` of the region's
  four column arrays, which hold the specification's three sums and first-column scores, and the reference's is the
  same `Spec.psl` under finite inputs; the weights are one term of the last two inputs; the final loss is the same
  weighted mean of equal arrays.
-/
import proofs.«145600_j21517786153378_1_alg».proof.Defs
import proofs.«145600_j21517786153378_1_alg».proof.Proof.KRun
import proofs.«145600_j21517786153378_1_alg».proof.Proof.KPre
import proofs.«145600_j21517786153378_1_alg».proof.Proof.KScores
import proofs.«145600_j21517786153378_1_alg».proof.Proof.KSums
import proofs.«145600_j21517786153378_1_alg».proof.Proof.KFirstCol
import proofs.«145600_j21517786153378_1_alg».proof.Proof.RefValue
import proofs.«145600_j21517786153378_1_alg».proof.Proof.Finite
import proofs.«145600_j21517786153378_1_alg».proof.Proof.Gen.Pre_finite_inputs

set_option maxRecDepth 16384

noncomputable section

namespace Cert.Proof.Bridge

open Idealize.ShloMosaic Idealize.ShloMosaic.TcCoe Idealize.ShloMosaic.ValueIdx Idealize.SL.Sem

/-! ## The kernel's host prefix is the reference's -/

theorem normed_eq_v15 (x : Vec Ideal Cert.KernelIdeal.S4096x512 .f32) :
    Cert.KernelIdeal.KT.normed x = Cert.ReferenceIdeal.Read.val_main_v15 (F := Ideal) x := rfl

theorem normed_eq_v7 (x : Vec Ideal Cert.KernelIdeal.S4096x512 .f32) :
    Cert.KernelIdeal.KT.normed x = Cert.ReferenceIdeal.Read.val_main_v7 (F := Ideal) x := rfl

theorem labels_eq (p : IVec Cert.KernelIdeal.S4096 32) : Cert.KernelIdeal.KT.labels p = Cert.ReferenceIdeal.Read.val_main_v22 (F := Ideal) p := rfl

theorem mask_eq (p : IVec Cert.KernelIdeal.S4096 32) : Cert.KernelIdeal.KT.mask p = Cert.ReferenceIdeal.Read.val_main_v24 (F := Ideal) p := rfl

theorem nneg_eq (p : IVec Cert.KernelIdeal.S4096 32) : Cert.KernelIdeal.KT.nneg p = Cert.ReferenceIdeal.Read.val_main_v25 (F := Ideal) p := rfl

theorem weights_eq (u : Vec Ideal Cert.KernelIdeal.S4096 .f32) (s : IVec Cert.KernelIdeal.S4096 32) :
    Cert.KernelIdeal.KT.weights u s = Cert.ReferenceIdeal.Read.val_main_v81 (F := Ideal) u s := rfl

theorem final_eq (x0 x1 : Vec Ideal Cert.KernelIdeal.S4096x512 .f32) (x2 : IVec Cert.KernelIdeal.S4096 32) (x3 x4 : Vec Ideal Cert.KernelIdeal.S4096 .f32) (x5 : IVec Cert.KernelIdeal.S4096 32) :
    Cert.ReferenceIdeal.Read.val_main_v85 (F := Ideal) x0 x1 x2 x3 x4 x5
      = Cert.KernelIdeal.KT.finalOf (Cert.ReferenceIdeal.Read.val_main_v72 (F := Ideal) x0 x1 x2 x3) (Cert.ReferenceIdeal.Read.val_main_v81 (F := Ideal) x4 x5) := rfl

section
set_option quotPrecheck false
variable (m : (ℓ : Loc Cert.KernelIdeal.nD Cert.KernelIdeal.τ Cert.KernelIdeal.sig) → Buf (Elt Ideal) ℓ) (c : Dev Cert.KernelIdeal.nD)

local notation "a0" => m ((c.tc : Thread Cert.KernelIdeal.nD Cert.KernelIdeal.τ).loc Cert.KernelIdeal.main_arg0)
local notation "a1" => m ((c.tc : Thread Cert.KernelIdeal.nD Cert.KernelIdeal.τ).loc Cert.KernelIdeal.main_arg1)
local notation "a2" => m ((c.tc : Thread Cert.KernelIdeal.nD Cert.KernelIdeal.τ).loc Cert.KernelIdeal.main_arg2)
local notation "a3" => m ((c.tc : Thread Cert.KernelIdeal.nD Cert.KernelIdeal.τ).loc Cert.KernelIdeal.main_arg3)
local notation "a4" => m ((c.tc : Thread Cert.KernelIdeal.nD Cert.KernelIdeal.τ).loc Cert.KernelIdeal.main_arg4)
local notation "a5" => m ((c.tc : Thread Cert.KernelIdeal.nD Cert.KernelIdeal.τ).loc Cert.KernelIdeal.main_arg5)

/-- The text rows the region finds are the reference's. -/
theorem Tk_eq : Cert.KernelIdeal.KA.Tk m c = Cert.ReferenceIdeal.RN.Tr a1 := by
  funext r k
  unfold Cert.KernelIdeal.KA.Tk Cert.ReferenceIdeal.RN.Tr
  rw [Cert.KernelIdeal.KT.pre_T m c, normed_eq_v15]

/-- The image rows the region finds are the reference's. -/
theorem Vk_eq : Cert.KernelIdeal.KA.Vk m c = Cert.ReferenceIdeal.RN.Vr a0 := by
  funext r k
  unfold Cert.KernelIdeal.KA.Vk Cert.ReferenceIdeal.RN.Vr
  rw [Cert.KernelIdeal.KT.pre_V m c, normed_eq_v7]

theorem Lk_eq : Cert.KernelIdeal.KA.Lk m c = Cert.ReferenceIdeal.RN.Lr a2 := by
  funext j
  unfold Cert.KernelIdeal.KA.Lk Cert.ReferenceIdeal.RN.Lr
  rw [Cert.KernelIdeal.KT.pre_L m c, labels_eq]

theorem Mk_eq : Cert.KernelIdeal.KA.Mk m c = Cert.ReferenceIdeal.RN.Mr a2 := by
  funext j
  unfold Cert.KernelIdeal.KA.Mk Cert.ReferenceIdeal.RN.Mr
  rw [Cert.KernelIdeal.KT.pre_M m c, mask_eq]

theorem N_eq : (Cert.KernelIdeal.Gen.V m c Cert.KernelIdeal.main_v25 : Cert.KernelIdeal.S_.Idx → EReal) ix0 = Cert.ReferenceIdeal.RN.Nr a2 := by
  unfold Cert.ReferenceIdeal.RN.Nr
  rw [Cert.KernelIdeal.KT.pre_N m c, nneg_eq]

/-- Under the precondition the two feature arrays hold reals. -/
theorem reals [hP : Cert.Pre_finite_inputs.Facts] (hpre : Cert.Pre_KernelIdeal m) :
    (∀ i, ∃ x : ℝ, (a0 : Cert.KernelIdeal.S4096x512.Idx → EReal) i = (x : EReal)) ∧ (∀ i, ∃ x : ℝ, (a1 : Cert.KernelIdeal.S4096x512.Idx → EReal) i = (x : EReal)) :=
  Cert.Finite.real_of_pre _ _ _ _ _ _ (hpre c)

/-- The kernel's per-sample losses are the reference's stage of the same inputs. -/
theorem psl_arrays [hP : Cert.Pre_finite_inputs.Facts] (hpre : Cert.Pre_KernelIdeal m) :
    (Cert.KernelIdeal.KT.tailAt m c Cert.KernelIdeal.main_v57 : Cert.KernelIdeal.S4096.Idx → EReal) = Cert.ReferenceIdeal.Read.val_main_v72 (F := Ideal) a0 a1 a2 a3 := by
  obtain ⟨h0, h1⟩ := reals m c hpre
  funext i
  obtain ⟨r, rfl⟩ : ∃ r : Fin 4096, i = ix1 r := ⟨i 0, eq_ix1 i⟩
  rw [Cert.ReferenceIdeal.RV.psl_eq a0 a1 a2 a3 h0 h1 r, Cert.KernelIdeal.KT.tail_psl m c r, Cert.KernelIdeal.KA.arr5 m c r, Cert.KernelIdeal.KA.arr6 m c r, Cert.KernelIdeal.KA.arr7 m c r, Cert.KernelIdeal.KA.arr8 m c r,
    Tk_eq m c, Vk_eq m c, Lk_eq m c, Mk_eq m c, N_eq m c]
  rfl

/-- The kernel's scores are the reference's stage of the same inputs. -/
theorem score_arrays :
    ((Cert.KernelIdeal.Gen.dats m 0 c).arrAt 4 Cert.KernelIdeal.cfg0.N : Cert.KernelIdeal.S4096x4096.Idx → EReal) = Cert.ReferenceIdeal.Read.val_main_v17 (F := Ideal) a0 a1 := by
  funext i
  obtain ⟨r, c', rfl⟩ : ∃ (r c' : Fin 4096), i = ix2 r c' := ⟨i 0, i 1, eq_ix2 i⟩
  rw [Cert.KernelIdeal.KA.arr4 m c r c', Cert.ReferenceIdeal.RN.score_eq a0 a1 r c', Tk_eq m c, Vk_eq m c]

end

/-! ## The claim -/

/-- From memories agreeing on the inputs the two idealized programs end with equal results: the kernel's run names
    its results (the tail's values and the region's scores), and the reference's stages of the same inputs are those. -/
theorem algebraic : Cert.algebraic_KernelIdeal_ReferenceIdeal := by
  intro m ρ m' ρ' hpre hagree
  refine ⟨fun c => Cert.KernelIdeal.KT.tailAt m c Cert.KernelIdeal.main_v70, fun c => Cert.KernelIdeal.KT.tailAt m c Cert.KernelIdeal.main_v57,
    fun c => Cert.KernelIdeal.KT.tailAt m c Cert.KernelIdeal.main_v66, fun c => (Cert.KernelIdeal.Gen.dats m 0 c).arrAt 4 Cert.KernelIdeal.cfg0.N,
    Cert.KernelIdeal.KT.run_results m ρ, ?_⟩
  refine (θ_run Cert.ReferenceIdeal.defs _ _).mono (fun r h c => ?_) (Cert.ReferenceIdeal.Value.run (F := Ideal) m' ρ')
  obtain ⟨h85, h72, h81, h17, hargs⟩ := h c
  obtain ⟨e0, e1, e2, e3, e4, e5⟩ := hagree c
  have hpsl := psl_arrays m c hpre
  have hw := (Cert.KernelIdeal.KT.tail_w m c).trans (weights_eq _ _)
  refine ⟨?_, ?_, ?_, ?_, hargs⟩
  · rw [h85, Cert.ReferenceIdeal.Read.val_main_v85_eq, e0, e1, e2, e3, e4, e5, final_eq]
    show _ = Cert.KernelIdeal.KT.tailAt m c Cert.KernelIdeal.main_v70
    rw [Cert.KernelIdeal.KT.tail_final m c, hpsl, hw]
  · rw [h72, Cert.ReferenceIdeal.Read.val_main_v72_eq, e0, e1, e2, e3]
    exact hpsl.symm
  · rw [h81, Cert.ReferenceIdeal.Read.val_main_v81_eq, e4, e5]
    exact hw.symm
  · rw [h17, Cert.ReferenceIdeal.Read.val_main_v17_eq, e0, e1]
    exact (score_arrays m c).symm

end Cert.Proof.Bridge

end
-- ==== Proof.lean ====
/-
  A temperature-scaled contrastive loss with uncertainty weights: the fused kernel against its jnp reference.

  The kernel normalises the text and image features on the host, computes the 4096 x 4096 scores by tiles of
  1024 x 512 and, on the same pass, accumulates over the eight column tiles of each row the sum of the positives'
  weights exp (score / τ), the sum of the negatives' weights and the positives' weighted scores, keeps the scores'
  first column, and finishes the per-sample loss, the weights and the weighted mean on the host.  The reference does
  everything on the host and normalises each positive weight by their sum before summing the weighted scores; under
  finite inputs the two agree on the extended reals (Proof/Spec.lean states the common value, Proof/Bridge.lean the
  comparison).  The kernel multiplies the scores by the constant 50, named as the exact reciprocal of the
  reference's divisor f32(0.02) = 5368709 / 2^28: `preserves` is that entry's statement.
-/
import proofs.«145600_j21517786153378_1_alg».proof.Defs
import proofs.«145600_j21517786153378_1_alg».proof.Proof.Gen.Kernel
import proofs.«145600_j21517786153378_1_alg».proof.Proof.Gen.KernelIdeal
import proofs.«145600_j21517786153378_1_alg».proof.Proof.Gen.ReferenceIdeal
import proofs.«145600_j21517786153378_1_alg».proof.Proof.Gen.Pre_finite_inputs
import proofs.«145600_j21517786153378_1_alg».proof.Proof.KernelFrame.Frame
import proofs.«145600_j21517786153378_1_alg».proof.Proof.KernelIdealFrame.Frame
import proofs.«145600_j21517786153378_1_alg».proof.Proof.Gen.ReferenceIdeal.Run
import proofs.«145600_j21517786153378_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ledger's one entry: the table gives "inv_tau" the value 268435456 / 5368709, and the printed constant is that
    value at the ideal instance. -/
theorem preserves : Cert.preserves_Kernel_KernelIdeal :=
  IdealRules.named_const.statement Cert.KernelIdeal.κ "inv_tau" .f32 0x42480000#32 ((268435456 / 5368709 : ℝ) : EReal) rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Bridge.algebraic⟩

end Cert.Proof

end
